-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x768x512 : Shape := ⟨3, ![2, 768, 512]⟩
abbrev S64x512 : Shape := ⟨2, ![64, 512]⟩
abbrev S64x64 : Shape := ⟨2, ![64, 64]⟩
abbrev S64 : Shape := ⟨1, ![64]⟩
abbrev S_ : Shape := ⟨0, ![]⟩

class Facts : Prop where
  bcast_S_S2x768x512 : S_.BroadcastsInDim S2x768x512 (![] : Fin 0 → Fin S2x768x512.rank)
  reducesTo_S2x768x512_S_d0_1_2 : S2x768x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S2x768x512 .f32) (main_arg1 : FVec F S64x512 .f32) (main_arg2 : FVec F S64x512 .f32) (main_arg3 : FVec F S64x64 .f32) (main_arg4 : FVec F S64 .f32) (main_arg5 : FVec F S64 .f32) : IVec S_ 1 :=
  let main_v0 : FVec F S2x768x512 .f32 := Host.absf main_arg0
  let main_cst : FVec F S_ .f32 := constant S_ .f32 0x7F800000#32
  let main_v1 : FVec F S2x768x512 .f32 := broadcastInDim S2x768x512 ![] bcast_S_S2x768x512 main_cst
  let main_v2 : IVec S2x768x512 1 := cmpf .olt main_v0 main_v1
  let main_c : IVec S_ 1 := constantI S_ 1 1#1
  let main_v3 : IVec S_ 1 := (fun x v => Host.reduce IntOp.andi x v reducesTo_S2x768x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S2x768x512 : Shape := ⟨3, ![2, 768, 512]⟩
abbrev S64x512 : Shape := ⟨2, ![64, 512]⟩
abbrev S64x64 : Shape := ⟨2, ![64, 64]⟩
abbrev S64 : Shape := ⟨1, ![64]⟩
abbrev S2x768x64 : Shape := ⟨3, ![2, 768, 64]⟩
abbrev S1x768x512 : Shape := ⟨3, ![1, 768, 512]⟩
abbrev S1x768x64 : Shape := ⟨3, ![1, 768, 64]⟩
abbrev S768x512 : Shape := ⟨2, ![768, 512]⟩
abbrev S512x64 : Shape := ⟨2, ![512, 64]⟩
abbrev S768x64 : Shape := ⟨2, ![768, 64]⟩
abbrev S1x64 : Shape := ⟨2, ![1, 64]⟩
abbrev S2x768x768x64 : Shape := ⟨4, ![2, 768, 768, 64]⟩
abbrev S1x128x64 : Shape := ⟨3, ![1, 128, 64]⟩
abbrev S1x128x128x64 : Shape := ⟨4, ![1, 128, 128, 64]⟩
abbrev S128x64 : Shape := ⟨2, ![128, 64]⟩
abbrev S128x1x64 : Shape := ⟨3, ![128, 1, 64]⟩
abbrev S128x128x64 : Shape := ⟨3, ![128, 128, 64]⟩
abbrev S16384x64 : Shape := ⟨2, ![16384, 64]⟩
abbrev S128x128 : Shape := ⟨2, ![128, 128]⟩
abbrev S128x128x1 : Shape := ⟨3, ![128, 128, 1]⟩
abbrev S1x1x64 : Shape := ⟨3, ![1, 1, 64]⟩

abbrev nBuf : Space → Nat
  | .hbm => 11
  | .vmem => 17
  | .smem => 0
  | _ => 0

abbrev bufTy : (tb : Table) → Fin (tcTables nBuf tb) → BufTy
  | .hbm, ⟨0, _⟩ => ⟨S2x768x512, .f32⟩
  | .hbm, ⟨1, _⟩ => ⟨S64x512, .f32⟩
  | .hbm, ⟨2, _⟩ => ⟨S64x512, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S2x768x64, .f32⟩
  | .hbm, ⟨7, _⟩ => ⟨S2x768x64, .f32⟩
  | .hbm, ⟨8, _⟩ => ⟨S1x64, .f32⟩
  | .hbm, ⟨9, _⟩ => ⟨S1x64, .f32⟩
  | .hbm, ⟨10, _⟩ => ⟨S2x768x768x64, .f32⟩
  | .local _ .vmem, ⟨0, _⟩ => ⟨S1x768x512, .f32⟩
  | .local _ .vmem, ⟨1, _⟩ => ⟨S1x768x512, .f32⟩
  | .local _ .vmem, ⟨2, _⟩ => ⟨S64x512, .f32⟩
  | .local _ .vmem, ⟨3, _⟩ => ⟨S64x512, .f32⟩
  | .local _ .vmem, ⟨4, _⟩ => ⟨S1x768x64, .f32⟩
  | .local _ .vmem, ⟨5, _⟩ => ⟨S1x768x64, .f32⟩
  | .local _ .vmem, ⟨6, _⟩ => ⟨S1x768x64, .f32⟩
  | .local _ .vmem, ⟨7, _⟩ => ⟨S1x768x64, .f32⟩
  | .local _ .vmem, ⟨8, _⟩ => ⟨S1x128x64, .f32⟩
  | .local _ .vmem, ⟨9, _⟩ => ⟨S1x128x64, .f32⟩
  | .local _ .vmem, ⟨10, _⟩ => ⟨S1x128x64, .f32⟩
  | .local _ .vmem, ⟨11, _⟩ => ⟨S1x128x64, .f32⟩
  | .local _ .vmem, ⟨12, _⟩ => ⟨S64x64, .f32⟩
  | .local _ .vmem, ⟨13, _⟩ => ⟨S1x64, .f32⟩
  | .local _ .vmem, ⟨14, _⟩ => ⟨S1x64, .f32⟩
  | .local _ .vmem, ⟨15, _⟩ => ⟨S1x128x128x64, .f32⟩
  | .local _ .vmem, ⟨16, _⟩ => ⟨S1x128x128x64, .f32⟩
  | _, _ => ⟨S2x768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x768x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![2, 6, 6], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x128x128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

class Facts₀ : Prop where
  inb_S1x768x512_S1x768x512_0_0_0 : ∀ a, (![0, 0, 0] : Fin 3 → Nat) a + S1x768x512.size a ≤ S1x768x512.size a
  h_S1x768x512 : 0 < S1x768x512.numel
  shapeCasts_S1x768x512_S768x512 : S1x768x512.ShapeCasts S768x512
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  transposes_S64x512_p1_0_S512x64 : S64x512.Transposes [1, 0] S512x64
  inb_S1x768x64_S1x768x64_0_0_0 : ∀ a, (![0, 0, 0] : Fin 3 → Nat) a + S1x768x64.size a ≤ S1x768x64.size a
  h_S1x768x64 : 0 < S1x768x64.numel
  shapeCasts_S1x768x64_S768x64 : S1x768x64.ShapeCasts S768x64
  shapeCasts_S768x64_S1x768x64 : S768x64.ShapeCasts S1x768x64
  shapeCasts_S64_S1x64 : S64.ShapeCasts S1x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  inb_S64x64_S64x64_0_0 : ∀ a, (![0, 0] : Fin 2 → Nat) a + S64x64.size a ≤ S64x64.size a
  h_S64x64 : 0 < S64x64.numel
  shapeCasts_S128x128x64_S16384x64 : S128x128x64.ShapeCasts S16384x64
  transposes_S64x64_p1_0_S64x64 : S64x64.Transposes [1, 0] S64x64
  shapeCasts_S16384x64_S128x128x64 : S16384x64.ShapeCasts S128x128x64
  reduces_S128x128x64_S128x128 : S128x128x64.Reduces [2] S128x128
  shapeCasts_S128x128_S128x128x1 : S128x128.ShapeCasts S128x128x1
  broadcasts_S128x128x1_S128x128x64 : S128x128x1.Broadcasts S128x128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S128x128x64 : S1x1x64.Broadcasts S128x128x64
  inb_S1x128x128x64_S1x128x128x64_0_0_0_0 : ∀ a, (![0, 0, 0, 0] : Fin 4 → Nat) a + S1x128x128x64.size a ≤ S1x128x128x64.size a
  h_S1x128x128x64 : 0 < S1x128x128x64.numel
  shapeCasts_S1x128x128x64_S128x128x64 : S1x128x128x64.ShapeCasts S128x128x64
  shapeCasts_S128x128x64_S1x128x128x64 : S128x128x64.ShapeCasts S1x128x128x64
  dot_S768x512_S512x64_S768x64_1_0_0_1_n_n_wf : DotDims.WF S768x512 S512x64 S768x64 [1] [0] [0] [1] [] []
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x512.size a ≤ S2x768x512.size a
  hwx0_0 : ∀ i : grid0.Coords, EltTy.bits .f32 = 32 ∨ (Rect.block (s := S2x768x512) S1x768x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x64.size a ≤ S2x768x64.size a
  hwx0_3 : ∀ i : grid0.Coords, EltTy.bits .f32 = 32 ∨ (Rect.block (s := S2x768x64) S1x768x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x768x64.size a ≤ S2x768x64.size a
  hwx0_4 : ∀ i : grid0.Coords, EltTy.bits .f32 = 32 ∨ (Rect.block (s := S2x768x64) S1x768x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64.size a ≤ S2x768x64.size a
  hwx1_0 : ∀ i : grid1.Coords, EltTy.bits .f32 = 32 ∨ (Rect.block (s := S2x768x64) S1x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S2x768x64.size a
  hwx1_1 : ∀ i : grid1.Coords, EltTy.bits .f32 = 32 ∨ (Rect.block (s := S2x768x64) S1x128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x128x64.size a ≤ S2x768x768x64.size a
  hwx1_5 : ∀ i : grid1.Coords, EltTy.bits .f32 = 32 ∨ (Rect.block (s := S2x768x768x64) S1x128x128x64.size (cc1_transform_5 i) (hinb1_5 i)).WholeWords (EltTy.packing .f32)

variable [Facts₀]

def dot_S768x512_S512x64_S768x64_1_0_0_1_n_n : DotDims S768x512 S512x64 S768x64 where
  lhsContracting := [1]
  rhsContracting := [0]
  lhsNonContracting := [0]
  rhsNonContracting := [1]
  lhsBatch := []
  rhsBatch := []
  wf := dot_S768x512_S512x64_S768x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_arg0) S1x768x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x768x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x768x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S1x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128x128x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x768x512 : Shape := ⟨3, ![2, 768, 512]⟩
abbrev S64x512 : Shape := ⟨2, ![64, 512]⟩
abbrev S64x64 : Shape := ⟨2, ![64, 64]⟩
abbrev S64 : Shape := ⟨1, ![64]⟩
abbrev S2x768x64 : Shape := ⟨3, ![2, 768, 64]⟩
abbrev S2x768x1x64 : Shape := ⟨4, ![2, 768, 1, 64]⟩
abbrev S2x1x768x64 : Shape := ⟨4, ![2, 1, 768, 64]⟩
abbrev S2x768x768x64 : Shape := ⟨4, ![2, 768, 768, 64]⟩
abbrev S_ : Shape := ⟨0, ![]⟩
abbrev S2x768x768 : Shape := ⟨3, ![2, 768, 768]⟩
abbrev S2x768x768x1 : Shape := ⟨4, ![2, 768, 768, 1]⟩
abbrev S1x1x1x64 : Shape := ⟨4, ![1, 1, 1, 64]⟩

abbrev nBuf : Space → Nat
  | .hbm => 43
  | .vmem => 0
  | .smem => 0
  | _ => 0

abbrev bufTy : (tb : Table) → Fin (tcTables nBuf tb) → BufTy
  | .hbm, ⟨0, _⟩ => ⟨S2x768x512, .f32⟩
  | .hbm, ⟨1, _⟩ => ⟨S64x512, .f32⟩
  | .hbm, ⟨2, _⟩ => ⟨S64x512, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S2x768x64, .f32⟩
  | .hbm, ⟨7, _⟩ => ⟨S2x768x64, .f32⟩
  | .hbm, ⟨8, _⟩ => ⟨S2x768x1x64, .f32⟩
  | .hbm, ⟨9, _⟩ => ⟨S2x1x768x64, .f32⟩
  | .hbm, ⟨10, _⟩ => ⟨S2x768x768x64, .f32⟩
  | .hbm, ⟨11, _⟩ => ⟨S2x768x768x64, .f32⟩
  | .hbm, ⟨12, _⟩ => ⟨S2x768x768x64, .f32⟩
  | .hbm, ⟨13, _⟩ => ⟨S2x768x768x64, .f32⟩
  | .hbm, ⟨14, _⟩ => ⟨S_, .f32⟩
  | .hbm, ⟨15, _⟩ => ⟨S2x768x768, .f32⟩
  | .hbm, ⟨16, _⟩ => ⟨S2x768x768x1, .f32⟩
  | .hbm, ⟨17, _⟩ => ⟨S_, .f32⟩
  | .hbm, ⟨18, _⟩ => ⟨S2x768x768x1, .f32⟩
  | .hbm, ⟨19, _⟩ => ⟨S2x768x768x1, .f32⟩
  | .hbm, ⟨20, _⟩ => ⟨S2x768x768x64, .f32⟩
  | .hbm, ⟨21, _⟩ => ⟨S2x768x768x64, .f32⟩
  | .hbm, ⟨22, _⟩ => ⟨S2x768x768x64, .f32⟩
  | .hbm, ⟨23, _⟩ => ⟨S_, .f32⟩
  | .hbm, ⟨24, _⟩ => ⟨S2x768x768, .f32⟩
  | .hbm, ⟨25, _⟩ => ⟨S2x768x768x1, .f32⟩
  | .hbm, ⟨26, _⟩ => ⟨S_, .f32⟩
  | .hbm, ⟨27, _⟩ => ⟨S2x768x768x1, .f32⟩
  | .hbm, ⟨28, _⟩ => ⟨S2x768x768x1, .f32⟩
  | .hbm, ⟨29, _⟩ => ⟨S2x768x768x64, .f32⟩
  | .hbm, ⟨30, _⟩ => ⟨S2x768x768x64, .f32⟩
  | .hbm, ⟨31, _⟩ => ⟨S_, .f32⟩
  | .hbm, ⟨32, _⟩ => ⟨S2x768x768x1, .f32⟩
  | .hbm, ⟨33, _⟩ => ⟨S2x768x768x1, .f32⟩
  | .hbm, ⟨34, _⟩ => ⟨S2x768x768x1, .f32⟩
  | .hbm, ⟨35, _⟩ => ⟨S2x768x768x64, .f32⟩
  | .hbm, ⟨36, _⟩ => ⟨S2x768x768x64, .f32⟩
  | .hbm, ⟨37, _⟩ => ⟨S1x1x1x64, .f32⟩
  | .hbm, ⟨38, _⟩ => ⟨S2x768x768x64, .f32⟩
  | .hbm, ⟨39, _⟩ => ⟨S2x768x768x64, .f32⟩
  | .hbm, ⟨40, _⟩ => ⟨S1x1x1x64, .f32⟩
  | .hbm, ⟨41, _⟩ => ⟨S2x768x768x64, .f32⟩
  | .hbm, ⟨42, _⟩ => ⟨S2x768x768x64, .f32⟩
  | _, _ => ⟨S2x768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S2x768x64_S2x768x1x64_0_1_3 : S2x768x64.BroadcastsInDim S2x768x1x64 (![0, 1, 3] : Fin 3 → Fin S2x768x1x64.rank)
  bcast_S2x768x64_S2x1x768x64_0_2_3 : S2x768x64.BroadcastsInDim S2x1x768x64 (![0, 2, 3] : Fin 3 → Fin S2x1x768x64.rank)
  bcast_S2x768x1x64_S2x768x768x64_0_1_2_3 : S2x768x1x64.BroadcastsInDim S2x768x768x64 (![0, 1, 2, 3] : Fin 4 → Fin S2x768x768x64.rank)
  bcast_S2x1x768x64_S2x768x768x64_0_1_2_3 : S2x1x768x64.BroadcastsInDim S2x768x768x64 (![0, 1, 2, 3] : Fin 4 → Fin S2x768x768x64.rank)
  reducesTo_S2x768x768x64_S2x768x768_d3 : S2x768x768x64.ReducesTo [3] S2x768x768
  h_S_ : 0 < S_.numel
  bcast_S2x768x768_S2x768x768x1_0_1_2 : S2x768x768.BroadcastsInDim S2x768x768x1 (![0, 1, 2] : Fin 3 → Fin S2x768x768x1.rank)
  bcast_S_S2x768x768x1 : S_.BroadcastsInDim S2x768x768x1 (![] : Fin 0 → Fin S2x768x768x1.rank)
  bcast_S2x768x768x1_S2x768x768x64_0_1_2_3 : S2x768x768x1.BroadcastsInDim S2x768x768x64 (![0, 1, 2, 3] : Fin 4 → Fin S2x768x768x64.rank)
  bcast_S64_S1x1x1x64_3 : S64.BroadcastsInDim S1x1x1x64 (![3] : Fin 1 → Fin S1x1x1x64.rank)
  bcast_S1x1x1x64_S2x768x768x64_0_1_2_3 : S1x1x1x64.BroadcastsInDim S2x768x768x64 (![0, 1, 2, 3] : Fin 4 → Fin S2x768x768x64.rank)
  dot_S2x768x512_S64x512_S2x768x64_2_1_01_0_n_n_wf : DotDims.WF S2x768x512 S64x512 S2x768x64 [2] [1] [0, 1] [0] [] []
  dot_S2x768x768x64_S64x64_S2x768x768x64_3_1_012_0_n_n_wf : DotDims.WF S2x768x768x64 S64x64 S2x768x768x64 [3] [1] [0, 1, 2] [0] [] []

variable [Facts₀]

def dot_S2x768x512_S64x512_S2x768x64_2_1_01_0_n_n : DotDims S2x768x512 S64x512 S2x768x64 where
  lhsContracting := [2]
  rhsContracting := [1]
  lhsNonContracting := [0, 1]
  rhsNonContracting := [0]
  lhsBatch := []
  rhsBatch := []
  wf := dot_S2x768x512_S64x512_S2x768x64_2_1_01_0_n_n_wf
def dot_S2x768x768x64_S64x64_S2x768x768x64_3_1_012_0_n_n : DotDims S2x768x768x64 S64x64 S2x768x768x64 where
  lhsContracting := [3]
  rhsContracting := [1]
  lhsNonContracting := [0, 1, 2]
  rhsNonContracting := [0]
  lhsBatch := []
  rhsBatch := []
  wf := dot_S2x768x768x64_S64x64_S2x768x768x64_3_1_012_0_n_n_wf

class Facts : Prop extends Facts₀ where

variable [Facts]
-- ==== Proof.Spec.lean ====
/-
  The mathematics of the edge embedding, stated once over the extended reals and over literal shapes, with no
  program in sight.

  For node features `x : [2, 768, 512]` and two projection matrices `w : [64, 512]` the projected features are
  `proj x w (b, n, e) = ∑ d, x (b, n, d) · w (e, d)`.  For an ordered pair of nodes `(i, j)` of batch `b` the
  pre-activation row is `pre rows cols W b i j f = ∑ e, (rows (b, i, e) + cols (b, j, e)) · W (f, e)`, and the
  result is that row of 64 numbers normalised: centred at its mean, scaled by the reciprocal square root of the mean
  square of the centred row plus a small constant, then scaled by `g` and shifted by `bt` entry by entry.  The
  mean divides by the float 64 and the small constant is a float literal: both are kept as their bit patterns, the
  same patterns wherever they are used, so neither is ever evaluated.
-/
import Idealize.ShloMosaic.PureOps.Ideal
import Idealize.ShloMosaic.Lib.ValueIdx

noncomputable section

open scoped BigOperators

namespace Cert.EdgeNorm

open Idealize.ShloMosaic Idealize.ShloMosaic.ValueIdx

/-- One linear projection of the node features: the feature axis of length 512 contracted against a matrix row. -/
def proj (x : (⟨3, ![2, 768, 512]⟩ : Shape).Idx → EReal) (w : (⟨2, ![64, 512]⟩ : Shape).Idx → EReal) :
    (⟨3, ![2, 768, 64]⟩ : Shape).Idx → EReal :=
  fun i => ∑ d : Fin 512, x (ix3 (i 0) (i 1) d) * w (ix2 (i 2) d)

/-- The mean of a row of 64 extended reals: its sum divided by the float 64. -/
def mean64 (h : Fin 64 → EReal) : EReal :=
  Ideal.div (∑ f : Fin 64, h f) (Ideal.ofBits .f32 0x42800000#32)

/-- The row centred at its mean. -/
def centred (h : Fin 64 → EReal) (f : Fin 64) : EReal := h f - mean64 h

/-- The reciprocal square root of the centred row's mean square plus the small constant. -/
def invStd (h : Fin 64 → EReal) : EReal :=
  Ideal.rsqrt (mean64 (fun f => centred h f * centred h f) + Ideal.ofBits .f32 0x3727C5AC#32)

/-- The normalised row: centred, scaled by `invStd`, then by `g`, then shifted by `bt`. -/
def layerNorm (h g bt : Fin 64 → EReal) (f : Fin 64) : EReal :=
  centred h f * invStd h * g f + bt f

/-- The pre-activation row of the ordered pair `(i, j)` of batch `b`: the sum of node `i`'s row projection and node
    `j`'s column projection, pushed through the edge matrix. -/
def pre (rows cols : (⟨3, ![2, 768, 64]⟩ : Shape).Idx → EReal) (W : (⟨2, ![64, 64]⟩ : Shape).Idx → EReal)
    (b : Fin 2) (i j : Fin 768) (f : Fin 64) : EReal :=
  ∑ e : Fin 64, (rows (ix3 b i e) + cols (ix3 b j e)) * W (ix2 f e)

/-- The edge embedding from the two projected feature arrays. -/
def edge (rows cols : (⟨3, ![2, 768, 64]⟩ : Shape).Idx → EReal) (W : (⟨2, ![64, 64]⟩ : Shape).Idx → EReal)
    (g bt : Fin 64 → EReal) : (⟨4, ![2, 768, 768, 64]⟩ : Shape).Idx → EReal :=
  fun i => layerNorm (pre rows cols W (i 0) (i 1) (i 2)) g bt (i 3)

/-- The whole computation from the six inputs. -/
def result (x : (⟨3, ![2, 768, 512]⟩ : Shape).Idx → EReal) (wr wc : (⟨2, ![64, 512]⟩ : Shape).Idx → EReal)
    (W : (⟨2, ![64, 64]⟩ : Shape).Idx → EReal) (g bt : (⟨1, ![64]⟩ : Shape).Idx → EReal) :
    (⟨4, ![2, 768, 768, 64]⟩ : Shape).Idx → EReal :=
  edge (proj x wr) (proj x wc) W (fun f => g (ix1 f)) (fun f => bt (ix1 f))

end Cert.EdgeNorm

end
-- ==== Proof.RefValue.lean ====
/-
  The reference's value is the specification's.

  The reference computes, stage by stage: the two projections (each the feature axis of length 512 contracted
  against a matrix row), their outer sum over ordered node pairs, the contraction of that sum against the edge
  matrix (the pre-activation row of 64 entries), the row's mean (its sum, started from the float 0, divided by the
  float 64), the centred row (formed twice, by the same difference from the same broadcast mean), the mean of the
  centred row's squares plus the small constant, its reciprocal square root, and at last the centred entry times
  that, times the scale entry, plus the shift entry.

  Each lemma below reads one of these stages at an index and identifies it with the specification's function of
  the same name at the index's coordinates: both sides are the same tree of operations, so nothing is used beyond
  `0 + x = x` for the sums' initial value and the identification of a composed index with the index of its
  coordinates.
-/
import proofs.«136139_j21088289424017_1_alg».proof.Defs
import proofs.«136139_j21088289424017_1_alg».proof.Proof.Gen.ReferenceIdeal.Run
import proofs.«136139_j21088289424017_1_alg».proof.Proof.Gen.ReferenceIdeal.Read
import proofs.«136139_j21088289424017_1_alg».proof.Proof.Spec
import Idealize.ShloMosaic.Lib.ValueIdx
import Idealize.ShloMosaic.PureOps.Ideal.Laws

noncomputable section

open scoped BigOperators

namespace Cert.ReferenceIdeal.RefValue
open Cert.ReferenceIdeal Cert.ReferenceIdeal.Read
open Idealize.ShloMosaic Idealize.ShloMosaic.ValueIdx
open Cert.EdgeNorm

/-- A projection stage is the specification's projection. -/
theorem v0_eq (x0 : (⟨S2x768x512, .f32⟩ : BufTy).Contents (Elt Ideal)) (x1 : (⟨S64x512, .f32⟩ : BufTy).Contents (Elt Ideal)) :
    val_main_v0 (F := Ideal) x0 x1 = proj x0 x1 := by
  funext i
  rw [val_main_v0_apply]
  unfold proj
  refine Finset.sum_congr rfl fun k _ => ?_
  have e1 : lidx_main_v0 i k = ix3 (i 0) (i 1) k :=
    funext fun a => Fin.ext (by match a with | ⟨0, _⟩ => rfl | ⟨1, _⟩ => rfl | ⟨2, _⟩ => rfl)
  have e2 : ridx_main_v0 i k = ix2 (i 2) k :=
    funext fun a => Fin.ext (by match a with | ⟨0, _⟩ => rfl | ⟨1, _⟩ => rfl)
  rw [e1, e2]
  rfl

theorem v1_eq (x0 : (⟨S2x768x512, .f32⟩ : BufTy).Contents (Elt Ideal)) (x2 : (⟨S64x512, .f32⟩ : BufTy).Contents (Elt Ideal)) :
    val_main_v1 (F := Ideal) x0 x2 = proj x0 x2 := by
  funext i
  rw [val_main_v1_apply]
  unfold proj
  refine Finset.sum_congr rfl fun k _ => ?_
  have e1 : lidx_main_v1 i k = ix3 (i 0) (i 1) k :=
    funext fun a => Fin.ext (by match a with | ⟨0, _⟩ => rfl | ⟨1, _⟩ => rfl | ⟨2, _⟩ => rfl)
  have e2 : ridx_main_v1 i k = ix2 (i 2) k :=
    funext fun a => Fin.ext (by match a with | ⟨0, _⟩ => rfl | ⟨1, _⟩ => rfl)
  rw [e1, e2]
  rfl

theorem v6_at (x0 : (⟨S2x768x512, .f32⟩ : BufTy).Contents (Elt Ideal)) (x1 x2 : (⟨S64x512, .f32⟩ : BufTy).Contents (Elt Ideal))
    (i : S2x768x768x64.Idx) :
    val_main_v6 (F := Ideal) x0 x1 x2 i = proj x0 x1 (ix3 (i 0) (i 1) (i 3)) + proj x0 x2 (ix3 (i 0) (i 2) (i 3)) := by
  rw [val_main_v6_apply, val_main_v4_apply, val_main_v2_apply, val_main_v5_apply, val_main_v3_apply, v0_eq, v1_eq,
    Ideal.addf_def]
  have e1 : idx_main_v2 (idx_main_v4 i) = ix3 (i 0) (i 1) (i 3) :=
    funext fun a => Fin.ext (by match a with | ⟨0, _⟩ => rfl | ⟨1, _⟩ => rfl | ⟨2, _⟩ => rfl)
  have e2 : idx_main_v3 (idx_main_v5 i) = ix3 (i 0) (i 2) (i 3) :=
    funext fun a => Fin.ext (by match a with | ⟨0, _⟩ => rfl | ⟨1, _⟩ => rfl | ⟨2, _⟩ => rfl)
  rw [e1, e2]
  rfl

theorem v7_at (x0 : (⟨S2x768x512, .f32⟩ : BufTy).Contents (Elt Ideal)) (x1 x2 : (⟨S64x512, .f32⟩ : BufTy).Contents (Elt Ideal))
    (x3 : (⟨S64x64, .f32⟩ : BufTy).Contents (Elt Ideal)) (i : S2x768x768x64.Idx) :
    val_main_v7 (F := Ideal) x0 x1 x2 x3 i = pre (proj x0 x1) (proj x0 x2) x3 (i 0) (i 1) (i 2) (i 3) := by
  rw [val_main_v7_apply]
  unfold pre
  refine Finset.sum_congr rfl fun k _ => ?_
  rw [v6_at]
  have e2 : ridx_main_v7 i k = ix2 (i 3) k :=
    funext fun a => Fin.ext (by match a with | ⟨0, _⟩ => rfl | ⟨1, _⟩ => rfl)
  rw [e2]
  rfl

/-- The row mean: the sum of the pre-activation row over its 64 entries (the reduce's initial value is the float 0),
    divided by the float 64. -/
theorem v11_at (x0 : (⟨S2x768x512, .f32⟩ : BufTy).Contents (Elt Ideal)) (x1 x2 : (⟨S64x512, .f32⟩ : BufTy).Contents (Elt Ideal))
    (x3 : (⟨S64x64, .f32⟩ : BufTy).Contents (Elt Ideal)) (j : S2x768x768x1.Idx) :
    val_main_v11 (F := Ideal) x0 x1 x2 x3 j = mean64 (pre (proj x0 x1) (proj x0 x2) x3 (j 0) (j 1) (j 2)) := by
  rw [val_main_v11_apply, val_main_v9_apply, val_main_v10_apply, val_main_cst_0_apply, val_main_v8_apply,
    val_main_cst_apply, Ideal.hostDivf_def, Ideal.ofBits_def, Ideal.ofBits_def, Ideal.ofBits_zero_f32, zero_add]
  unfold mean64
  refine congrArg (Ideal.div · _) (Finset.sum_congr rfl fun k _ => ?_)
  exact v7_at x0 x1 x2 x3 (idx_main_v8 (idx_main_v9 j) k)

/-- The centred entry, as the first difference stage computes it. -/
theorem v13_at (x0 : (⟨S2x768x512, .f32⟩ : BufTy).Contents (Elt Ideal)) (x1 x2 : (⟨S64x512, .f32⟩ : BufTy).Contents (Elt Ideal))
    (x3 : (⟨S64x64, .f32⟩ : BufTy).Contents (Elt Ideal)) (i : S2x768x768x64.Idx) :
    val_main_v13 (F := Ideal) x0 x1 x2 x3 i = centred (pre (proj x0 x1) (proj x0 x2) x3 (i 0) (i 1) (i 2)) (i 3) := by
  rw [val_main_v13_apply, val_main_v12_apply, v11_at, v7_at, Ideal.subf_def]
  rfl

/-- The centred entry, as the second difference stage computes it: the same difference. -/
theorem v20_at (x0 : (⟨S2x768x512, .f32⟩ : BufTy).Contents (Elt Ideal)) (x1 x2 : (⟨S64x512, .f32⟩ : BufTy).Contents (Elt Ideal))
    (x3 : (⟨S64x64, .f32⟩ : BufTy).Contents (Elt Ideal)) (i : S2x768x768x64.Idx) :
    val_main_v20 (F := Ideal) x0 x1 x2 x3 i = centred (pre (proj x0 x1) (proj x0 x2) x3 (i 0) (i 1) (i 2)) (i 3) := by
  rw [val_main_v20_apply, val_main_v19_apply, v11_at, v7_at, Ideal.subf_def]
  rfl

/-- The reciprocal square root of the centred row's mean square plus the small constant. -/
theorem v23_at (x0 : (⟨S2x768x512, .f32⟩ : BufTy).Contents (Elt Ideal)) (x1 x2 : (⟨S64x512, .f32⟩ : BufTy).Contents (Elt Ideal))
    (x3 : (⟨S64x64, .f32⟩ : BufTy).Contents (Elt Ideal)) (j : S2x768x768x1.Idx) :
    val_main_v23 (F := Ideal) x0 x1 x2 x3 j = invStd (pre (proj x0 x1) (proj x0 x2) x3 (j 0) (j 1) (j 2)) := by
  rw [val_main_v23_apply, val_main_v22_apply, val_main_v18_apply, val_main_v21_apply, val_main_cst_3_apply,
    val_main_v16_apply, val_main_v17_apply, val_main_cst_2_apply, val_main_v15_apply, val_main_cst_1_apply,
    Ideal.hostUnary_rsqrt_def, Ideal.addf_def, Ideal.hostDivf_def, Ideal.ofBits_def, Ideal.ofBits_def, Ideal.ofBits_def,
    Ideal.ofBits_zero_f32, zero_add]
  unfold invStd mean64
  refine congrArg (fun t => Ideal.rsqrt (Ideal.div t _ + _)) (Finset.sum_congr rfl fun k _ => ?_)
  rw [val_main_v14_apply, v13_at, Ideal.mulf_def]
  rfl

theorem ref_eq (x0 : (⟨S2x768x512, .f32⟩ : BufTy).Contents (Elt Ideal)) (x1 x2 : (⟨S64x512, .f32⟩ : BufTy).Contents (Elt Ideal))
    (x3 : (⟨S64x64, .f32⟩ : BufTy).Contents (Elt Ideal)) (x4 x5 : (⟨S64, .f32⟩ : BufTy).Contents (Elt Ideal)) :
    val_main_v31 (F := Ideal) x0 x1 x2 x3 x4 x5 = Cert.EdgeNorm.result x0 x1 x2 x3 x4 x5 := by
  funext i
  rw [val_main_v31_apply, val_main_v28_apply, val_main_v30_apply, val_main_v29_apply, val_main_v25_apply,
    val_main_v27_apply, val_main_v26_apply, val_main_v24_apply, v20_at, v23_at,
    Ideal.addf_def, Ideal.mulf_def, Ideal.mulf_def]
  have e4 : idx_main_v26 (idx_main_v27 i) = ix1 (i 3) :=
    funext fun a => Fin.ext (by match a with | ⟨0, _⟩ => rfl)
  have e5 : idx_main_v29 (idx_main_v30 i) = ix1 (i 3) :=
    funext fun a => Fin.ext (by match a with | ⟨0, _⟩ => rfl)
  rw [e4, e5]
  rfl

end Cert.ReferenceIdeal.RefValue

end
-- ==== Proof.Between.lean ====
/-
  What the second pallas_call finds in its five operand arrays, in terms of the launch memory.

  Between the two calls @main runs two reshapes: the scale vector and the shift vector, each of length 64, become
  `[1, 64]` arrays.  Neither reshape writes a projected array nor the edge matrix, so the second call finds the
  projected arrays as the first call left them, the edge matrix as launched, and the two `[1, 64]` arrays holding at
  `(0, f)` the launched vectors' entry `f`.
-/
import proofs.«136139_j21088289424017_1_alg».proof.Defs
import proofs.«136139_j21088289424017_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Between

open Cert.KernelIdeal Cert.KernelIdeal.Gen

variable {F : FTy → Type} [FloatOps F]
variable (m : (ℓ : Loc nD τ sig) → Buf (Elt F) ℓ) (ρ : Dev nD → PrngReg)

/-- A buffer that neither reshape writes is, after them, what it was before them. -/
theorem W2_of_ne (c : Dev nD) (b : Ref sig .tc) (h1 : b ≠ main_v1) (h2 : b ≠ main_v2) :
    W2 m ρ c (Proc.devRef .tc b) = W1 m ρ c (Proc.devRef .tc b) := by
  show StableHlo.after hostOps1 (W1 m ρ c) (Proc.devRef .tc b) = _
  simp only [hostOps1, after_cons, after_nil]
  rw [reshape_result_ne (h := h2), reshape_result_ne (h := h1)]

/-- The row projections reach the second call as the first call's write-backs left them. -/
theorem V2_rows (c : Dev nD) : V2 m ρ c main_v0_0 = (dat0 (V0 m ρ) c).arrAt 3 cfg0.N :=
  (W2_of_ne m ρ c main_v0_0 (by decide) (by decide)).trans (W1_arr m ρ c 3)

/-- The column projections likewise. -/
theorem V2_cols (c : Dev nD) : V2 m ρ c main_v0_1 = (dat0 (V0 m ρ) c).arrAt 4 cfg0.N :=
  (W2_of_ne m ρ c main_v0_1 (by decide) (by decide)).trans (W1_arr m ρ c 4)

/-- The edge matrix reaches the second call as launched. -/
theorem V2_edgeMatrix (c : Dev nD) : V2 m ρ c main_arg3 = m ((c : Thread nD τ).loc main_arg3) :=
  (W2_of_ne m ρ c main_arg3 (by decide) (by decide)).trans (W1_of_ne m ρ c main_arg3 (by decide))

/-- The reshaped scale vector holds, at `(0, f)`, the launched vector's entry `f`. -/
theorem V2_scale (c : Dev nD) (f : Fin 64) :
    V2 m ρ c main_v1 (ix2 0 f) = m ((c : Thread nD τ).loc main_arg4) (ix1 f) := by
  show StableHlo.after hostOps1 (W1 m ρ c) (Proc.devRef .tc main_v1) (ix2 0 f) = _
  simp only [hostOps1, after_cons, after_nil]
  rw [reshape_result_ne (h := (by decide : main_v1 ≠ main_v2)), reshape_result]
  show shapeCast S1x64 (W1 m ρ c (Proc.devRef .tc main_arg4)) shapeCasts_S64_S1x64 (ix2 0 f) = _
  rw [W1_of_ne m ρ c main_arg4 (by decide)]
  exact shapeCast_a_1a_apply _ _ 0 f

/-- The reshaped shift vector likewise. -/
theorem V2_shift (c : Dev nD) (f : Fin 64) :
    V2 m ρ c main_v2 (ix2 0 f) = m ((c : Thread nD τ).loc main_arg5) (ix1 f) := by
  show StableHlo.after hostOps1 (W1 m ρ c) (Proc.devRef .tc main_v2) (ix2 0 f) = _
  simp only [hostOps1, after_cons, after_nil]
  rw [reshape_result]
  refine (shapeCast_a_1a_apply _ _ 0 f).trans ?_
  rw [reshape_result_ne (h := (by decide : main_arg5 ≠ main_v1)), W1_of_ne m ρ c main_arg5 (by decide)]

end Cert.KernelIdeal.Between

end
-- ==== Proof.Region0.lean ====
/-
  The projection kernel, read whole.  Each grid point `b` of the first pipeline holds one batch of node features,
  a block `x : [1, 768, 512]`, and the two projection matrices whole, `w : [64, 512]`; it stores
  `(0, n, e) ↦ ∑ d, x (0, n, d) · w (e, d)` into its block of the rows array and of the columns array.  The block of
  point `b` is batch `b` of each array, the two points' blocks tile the arrays, and so after the pipeline the rows array
  is `proj x W_rows` and the columns array is `proj x W_cols`, index by index.

  The sum at an output element is the matrix product's contraction, re-indexed through its one axis of length 512; the
  format changes are the identity on the extended reals, the transpose swaps the two coordinates of the matrix, and the
  shape casts drop and add the leading unit axis.  No law of arithmetic is used beyond `0 + x = x` for the zero
  accumulator.
-/
import proofs.«136139_j21088289424017_1_alg».proof.Defs
import proofs.«136139_j21088289424017_1_alg».proof.Proof.Gen.KernelIdeal.Frame
import proofs.«136139_j21088289424017_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Region0
open Cert.KernelIdeal Cert.KernelIdeal.Gen

/-! ## The matrix product's operand indices, axis by axis

The product `[768, 512] × [512, 64] → [768, 64]` contracts the left operand's axis 1 against the right operand's axis 0:
at output `(n, e)` and contraction coordinate `k` it reads the left operand at `(n, k)` and the right at `(k, e)`. -/

/-- The left operand's row is the output's row. -/
theorem lhs_row (i : S768x64.Idx) (q : dot_S768x512_S512x64_S768x64_1_0_0_1_n_n.contr.Idx) :
    (dot_S768x512_S512x64_S768x64_1_0_0_1_n_n.lhsIdx i q 0).val = (i 0).val := by
  unfold DotDims.lhsIdx
  rw [dif_neg (show ¬(0 : Fin S768x512.rank) ∈ dot_S768x512_S512x64_S768x64_1_0_0_1_n_n.lhsBatch by decide), dif_pos (show (0 : Fin S768x512.rank) ∈ dot_S768x512_S512x64_S768x64_1_0_0_1_n_n.lhsNonContracting by decide)]
  rfl
/-- The left operand's column is the contraction coordinate. -/
theorem lhs_contr (i : S768x64.Idx) (q : dot_S768x512_S512x64_S768x64_1_0_0_1_n_n.contr.Idx) :
    (dot_S768x512_S512x64_S768x64_1_0_0_1_n_n.lhsIdx i q 1).val = (q ⟨0, by decide⟩).val :=
  dot_S768x512_S512x64_S768x64_1_0_0_1_n_n.lhsIdx_val_of_single rfl i q
/-- The right operand's row is the contraction coordinate. -/
theorem rhs_contr (i : S768x64.Idx) (q : dot_S768x512_S512x64_S768x64_1_0_0_1_n_n.contr.Idx) :
    (dot_S768x512_S512x64_S768x64_1_0_0_1_n_n.rhsIdx i q 0).val = (q ⟨0, by decide⟩).val :=
  dot_S768x512_S512x64_S768x64_1_0_0_1_n_n.rhsIdx_val_of_single rfl i q
/-- The right operand's column is the output's column. -/
theorem rhs_col (i : S768x64.Idx) (q : dot_S768x512_S512x64_S768x64_1_0_0_1_n_n.contr.Idx) :
    (dot_S768x512_S512x64_S768x64_1_0_0_1_n_n.rhsIdx i q 1).val = (i 1).val := by
  unfold DotDims.rhsIdx
  rw [dif_neg (show ¬(1 : Fin S512x64.rank) ∈ dot_S768x512_S512x64_S768x64_1_0_0_1_n_n.rhsBatch by decide), dif_pos (show (1 : Fin S512x64.rank) ∈ dot_S768x512_S512x64_S768x64_1_0_0_1_n_n.rhsNonContracting by decide)]
  rfl

/-- The product into the zero accumulator at `(n, e)`: the sum over the 512 contraction coordinates `k` of the left
    operand at `(n, k)` times the right operand at `(k, e)`. -/
theorem product_apply (l : FVec Ideal S768x512 .bf16) (r : FVec Ideal S512x64 .bf16) (n : Fin 768) (e : Fin 64) :
    FloatOps.matmul dot_S768x512_S512x64_S768x64_1_0_0_1_n_n none l r (constant S768x64 .f32 0x00000000#32) (ix2 n e)
      = ∑ k : Fin 512, l (ix2 n k) * r (ix2 k e) := by
  rw [Ideal.matmul_constant_zero_apply, ← Equiv.sum_comp (contrEquiv1 dot_S768x512_S512x64_S768x64_1_0_0_1_n_n 512 rfl rfl).symm]
  refine Finset.sum_congr rfl fun k _ => ?_
  have hk := contrEquiv1_symm_val dot_S768x512_S512x64_S768x64_1_0_0_1_n_n 512 rfl rfl k
  have el : dot_S768x512_S512x64_S768x64_1_0_0_1_n_n.lhsIdx (ix2 n e) ((contrEquiv1 dot_S768x512_S512x64_S768x64_1_0_0_1_n_n 512 rfl rfl).symm k) = ix2 n k := funext fun a => Fin.ext (by
    match a with
    | ⟨0, _⟩ => exact lhs_row _ _
    | ⟨1, _⟩ => exact (lhs_contr _ _).trans hk)
  have er : dot_S768x512_S512x64_S768x64_1_0_0_1_n_n.rhsIdx (ix2 n e) ((contrEquiv1 dot_S768x512_S512x64_S768x64_1_0_0_1_n_n 512 rfl rfl).symm k) = ix2 k e := funext fun a => Fin.ext (by
    match a with
    | ⟨0, _⟩ => exact (rhs_contr _ _).trans hk
    | ⟨1, _⟩ => exact rhs_col _ _)
  rw [el, er]

/-! ## The two payloads at an index -/

/-- The feature block with its unit axis dropped (the format change is the identity): `(n, d) ↦ x (0, n, d)`. -/
theorem features_apply (x0 : Vec Ideal S1x768x512 .f32) (n : Fin 768) (d : Fin 512) :
    k0_pay1 (F := Ideal) x0 (ix2 n d) = x0 (ix3 0 n d) := by
  unfold k0_pay1
  exact shapeCast_1ab_ab_apply x0 _ n d

/-- What is stored into the rows block at `(0, n, e)`: row `n` of the features against row `e` of the matrix. -/
theorem rows_pay_apply (x0 : Vec Ideal S1x768x512 .f32) (x1 : Vec Ideal S64x512 .f32) (n : Fin 768) (e : Fin 64) :
    k0_pay2 (F := Ideal) x0 x1 (ix3 0 n e) = ∑ d : Fin 512, x0 (ix3 0 n d) * x1 (ix2 e d) := by
  unfold k0_pay2
  refine (shapeCast_ab_1ab_apply _ _ 0 n e).trans ?_
  simp only [matmul]
  rw [product_apply]
  refine Finset.sum_congr rfl fun k _ => ?_
  rw [features_apply]
  exact congrArg (x0 (ix3 0 n k) * ·) (transpose_ix2_apply _ _ k e)

/-- What is stored into the columns block at `(0, n, e)`: the same sum against the other matrix. -/
theorem cols_pay_apply (x0 : Vec Ideal S1x768x512 .f32) (x2 : Vec Ideal S64x512 .f32) (n : Fin 768) (e : Fin 64) :
    k0_pay3 (F := Ideal) x0 x2 (ix3 0 n e) = ∑ d : Fin 512, x0 (ix3 0 n d) * x2 (ix2 e d) := by
  unfold k0_pay3
  refine (shapeCast_ab_1ab_apply _ _ 0 n e).trans ?_
  simp only [matmul]
  rw [product_apply]
  refine Finset.sum_congr rfl fun k _ => ?_
  rw [features_apply]
  exact congrArg (x0 (ix3 0 n k) * ·) (transpose_ix2_apply _ _ k e)

/-- A feature block whose rows are batch `b`'s rows of `X`, against a matrix block that is `W`: the rows payload at
    `(0, n, e)` is the projection of `X` by `W` at `(b, n, e)`. -/
theorem rows_pay_block (X : S2x768x512.Idx → EReal) (W : S64x512.Idx → EReal)
    (x0 : Vec Ideal S1x768x512 .f32) (x1 : Vec Ideal S64x512 .f32) (b : Fin 2)
    (h0 : ∀ (n : Fin 768) (d : Fin 512), x0 (ix3 0 n d) = X (ix3 b n d))
    (h1 : ∀ (e : Fin 64) (d : Fin 512), x1 (ix2 e d) = W (ix2 e d)) (y : S1x768x64.Idx) :
    k0_pay2 (F := Ideal) x0 x1 y = Cert.EdgeNorm.proj X W (ix3 b (y 1) (y 2)) := by
  obtain ⟨u, n, e, rfl⟩ : ∃ (u : Fin 1) (n : Fin 768) (e : Fin 64), y = ix3 u n e := ⟨y 0, y 1, y 2, eq_ix3 y⟩
  obtain rfl : u = 0 := Subsingleton.elim _ _
  rw [rows_pay_apply]
  exact Finset.sum_congr rfl fun d _ => by rw [h0, h1]

/-- The same for the columns payload. -/
theorem cols_pay_block (X : S2x768x512.Idx → EReal) (W : S64x512.Idx → EReal)
    (x0 : Vec Ideal S1x768x512 .f32) (x2 : Vec Ideal S64x512 .f32) (b : Fin 2)
    (h0 : ∀ (n : Fin 768) (d : Fin 512), x0 (ix3 0 n d) = X (ix3 b n d))
    (h2 : ∀ (e : Fin 64) (d : Fin 512), x2 (ix2 e d) = W (ix2 e d)) (y : S1x768x64.Idx) :
    k0_pay3 (F := Ideal) x0 x2 y = Cert.EdgeNorm.proj X W (ix3 b (y 1) (y 2)) := by
  obtain ⟨u, n, e, rfl⟩ : ∃ (u : Fin 1) (n : Fin 768) (e : Fin 64), y = ix3 u n e := ⟨y 0, y 1, y 2, eq_ix3 y⟩
  obtain rfl : u = 0 := Subsingleton.elim _ _
  rw [cols_pay_apply]
  exact Finset.sum_congr rfl fun d _ => by rw [h0, h2]

/-! ## The blocks' places in their arrays -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps, decided over the two grid points: the feature block and the two output blocks sit at the same
    batch, which is 0 or 1, and at block 0 on the other two axes; the two matrices are whole, at block (0, 0). -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (2 : Fin 3) = 0 ∧ win0_3.index t (0 : Fin 3) ≤ 1
    ∧ win0_4.index t (0 : Fin 3) = win0_3.index t (0 : Fin 3) ∧ win0_4.index t (1 : Fin 3) = 0 ∧ win0_4.index t (2 : Fin 3) = 0 :=
  (by decide +kernel : ∀ t : Fin grid0.N, _)

/-- Every batch's block of the rows array is some point's. -/
theorem rows_onto : ∀ q : Fin 2, ∃ t : Fin cfg0.N, win0_3.index t = ![q.val, 0, 0] :=
  (by decide +kernel : ∀ q : Fin 2, ∃ t : Fin grid0.N, win0_3.index t = ![q.val, 0, 0])

/-- Every batch's block of the columns array is some point's. -/
theorem cols_onto : ∀ q : Fin 2, ∃ t : Fin cfg0.N, win0_4.index t = ![q.val, 0, 0] :=
  (by decide +kernel : ∀ q : Fin 2, ∃ t : Fin grid0.N, win0_4.index t = ![q.val, 0, 0])

/-! ## The rows array -/

/-- What point `t` writes back to the rows array is block `t` of the projection by the rows matrix: the feature block
    is batch `index t 0` of the features, the matrix block is the matrix, and the output block is that batch of the
    result (a block's coordinate is the block index times the block size plus the coordinate inside the block). -/
theorem rows_flushed (c : Dev nD) (t : Fin cfg0.N) :
    (dat0 (F := Ideal) V c).flushed 3 t
      = ((cfg0.win 3).blk t).view.read (Elt Ideal) (Cert.EdgeNorm.proj (V c main_arg0) (V c main_arg1)) := by
  show (cfg0.win 3).cut (grid0.coords t) ((dat0 V c).after 3 t) = _
  rw [after0_3]
  unfold out0_3
  rw [View.canon_unit_zero hz3]
  simp only [View.ld_unit_zero (S := S1x768x512) hz3, View.ld_unit_zero (S := S64x512) hz2]
  funext y
  show k0_pay2 (F := Ideal) (iblk0 V c 0 t) (iblk0 V c 1 t) y
    = Cert.EdgeNorm.proj (V c main_arg0) (V c main_arg1) (((cfg0.win 3).blk t).view.emb y)
  obtain ⟨e00, e01, e02, e10, e11, e20, e21, e31, e32, e30, e40, e41, e42⟩ := idx_facts t
  have hb : win0_3.index t (0 : Fin 3) < 2 := by omega
  refine (rows_pay_block (V c main_arg0) (V c main_arg1) _ _ ⟨win0_3.index t (0 : Fin 3), hb⟩ ?_ ?_ y).trans ?_
  · intro n d
    show V c main_arg0 (((cfg0.win 0).blk t).view.emb (ix3 0 n d)) = _
    refine congrArg (V c main_arg0) (funext fun a => Fin.ext ?_)
    match a with
    | ⟨0, _⟩ => show win0_0.index t (0 : Fin 3) * 1 + 1 * 0 = win0_3.index t (0 : Fin 3); omega
    | ⟨1, _⟩ => show win0_0.index t (1 : Fin 3) * 768 + 1 * n.val = n.val; omega
    | ⟨2, _⟩ => show win0_0.index t (2 : Fin 3) * 512 + 1 * d.val = d.val; omega
  · intro e d
    show V c main_arg1 (((cfg0.win 1).blk t).view.emb (ix2 e d)) = _
    refine congrArg (V c main_arg1) (funext fun a => Fin.ext ?_)
    match a with
    | ⟨0, _⟩ => show win0_1.index t (0 : Fin 2) * 64 + 1 * e.val = e.val; omega
    | ⟨1, _⟩ => show win0_1.index t (1 : Fin 2) * 512 + 1 * d.val = d.val; omega
  · refine congrArg (Cert.EdgeNorm.proj (V c main_arg0) (V c main_arg1)) (funext fun a => Fin.ext ?_)
    have hy0 : (y 0).val < 1 := (y 0).isLt
    match a with
    | ⟨0, _⟩ => show win0_3.index t (0 : Fin 3) = win0_3.index t (0 : Fin 3) * 1 + 1 * (y 0).val; omega
    | ⟨1, _⟩ => show (y 1).val = win0_3.index t (1 : Fin 3) * 768 + 1 * (y 1).val; omega
    | ⟨2, _⟩ => show (y 2).val = win0_3.index t (2 : Fin 3) * 64 + 1 * (y 2).val; omega

/-- An index of the rows array is in point `t`'s block iff each coordinate is in the block's range on its axis. -/
theorem rows_mem_blk (t : Fin cfg0.N) (i : S2x768x64.Idx) :
    i ∈ ((cfg0.win 3).blk t).view.set ↔ ∀ a : Fin 3, win0_3.index t a * S1x768x64.size a ≤ (i a).val
      ∧ (i a).val < win0_3.index t a * S1x768x64.size a + S1x768x64.size a := by
  show i ∈ ((View.whole main_v0_0).slice (win0_3.rect t)).set ↔ _
  rw [View.set_slice_whole, Rect.mem_set_unit]
  exact Iff.rfl

/-- Every index `(b, n, e)` of the rows array is in the block of the point whose batch is `b`. -/
theorem rows_cover (i : S2x768x64.Idx) :
    ∃ t : Fin cfg0.N, (cfg0.win 3).flush t = true ∧ i ∈ ((cfg0.win 3).blk t).view.set := by
  have hi0 : (i 0).val < 2 := (i 0).isLt
  have hi1 : (i 1).val < 768 := (i 1).isLt
  have hi2 : (i 2).val < 64 := (i 2).isLt
  obtain ⟨t, ht⟩ := rows_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [rows_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 768 ≤ (i 1).val ∧ (i 1).val < win0_3.index t (1 : Fin 3) * 768 + 768; omega
  | ⟨2, _⟩ => show win0_3.index t (2 : Fin 3) * 64 ≤ (i 2).val ∧ (i 2).val < win0_3.index t (2 : Fin 3) * 64 + 64; omega

/-- The rows array after the pipeline is the projection of the features by the rows matrix. -/
theorem rows_final (c : Dev nD) :
    (dat0 (F := Ideal) V c).arrAt 3 cfg0.N = Cert.EdgeNorm.proj (V c main_arg0) (V c main_arg1) :=
  (dat0 (F := Ideal) V c).arrAt_eq_of_cover 3 (Cert.EdgeNorm.proj (V c main_arg0) (V c main_arg1))
    (fun t _ => rows_flushed V c t) rows_cover

/-! ## The columns array -/

/-- What point `t` writes back to the columns array is block `t` of the projection by the columns matrix. -/
theorem cols_flushed (c : Dev nD) (t : Fin cfg0.N) :
    (dat0 (F := Ideal) V c).flushed 4 t
      = ((cfg0.win 4).blk t).view.read (Elt Ideal) (Cert.EdgeNorm.proj (V c main_arg0) (V c main_arg2)) := by
  show (cfg0.win 4).cut (grid0.coords t) ((dat0 V c).after 4 t) = _
  rw [after0_4]
  unfold out0_4
  rw [View.canon_unit_zero hz3]
  simp only [View.ld_unit_zero (S := S1x768x512) hz3, View.ld_unit_zero (S := S64x512) hz2]
  funext y
  show k0_pay3 (F := Ideal) (iblk0 V c 0 t) (iblk0 V c 2 t) y
    = Cert.EdgeNorm.proj (V c main_arg0) (V c main_arg2) (((cfg0.win 4).blk t).view.emb y)
  obtain ⟨e00, e01, e02, e10, e11, e20, e21, e31, e32, e30, e40, e41, e42⟩ := idx_facts t
  have hb : win0_4.index t (0 : Fin 3) < 2 := by omega
  refine (cols_pay_block (V c main_arg0) (V c main_arg2) _ _ ⟨win0_4.index t (0 : Fin 3), hb⟩ ?_ ?_ y).trans ?_
  · intro n d
    show V c main_arg0 (((cfg0.win 0).blk t).view.emb (ix3 0 n d)) = _
    refine congrArg (V c main_arg0) (funext fun a => Fin.ext ?_)
    match a with
    | ⟨0, _⟩ => show win0_0.index t (0 : Fin 3) * 1 + 1 * 0 = win0_4.index t (0 : Fin 3); omega
    | ⟨1, _⟩ => show win0_0.index t (1 : Fin 3) * 768 + 1 * n.val = n.val; omega
    | ⟨2, _⟩ => show win0_0.index t (2 : Fin 3) * 512 + 1 * d.val = d.val; omega
  · intro e d
    show V c main_arg2 (((cfg0.win 2).blk t).view.emb (ix2 e d)) = _
    refine congrArg (V c main_arg2) (funext fun a => Fin.ext ?_)
    match a with
    | ⟨0, _⟩ => show win0_2.index t (0 : Fin 2) * 64 + 1 * e.val = e.val; omega
    | ⟨1, _⟩ => show win0_2.index t (1 : Fin 2) * 512 + 1 * d.val = d.val; omega
  · refine congrArg (Cert.EdgeNorm.proj (V c main_arg0) (V c main_arg2)) (funext fun a => Fin.ext ?_)
    have hy0 : (y 0).val < 1 := (y 0).isLt
    match a with
    | ⟨0, _⟩ => show win0_4.index t (0 : Fin 3) = win0_4.index t (0 : Fin 3) * 1 + 1 * (y 0).val; omega
    | ⟨1, _⟩ => show (y 1).val = win0_4.index t (1 : Fin 3) * 768 + 1 * (y 1).val; omega
    | ⟨2, _⟩ => show (y 2).val = win0_4.index t (2 : Fin 3) * 64 + 1 * (y 2).val; omega

/-- An index of the columns array is in point `t`'s block iff each coordinate is in the block's range on its axis. -/
theorem cols_mem_blk (t : Fin cfg0.N) (i : S2x768x64.Idx) :
    i ∈ ((cfg0.win 4).blk t).view.set ↔ ∀ a : Fin 3, win0_4.index t a * S1x768x64.size a ≤ (i a).val
      ∧ (i a).val < win0_4.index t a * S1x768x64.size a + S1x768x64.size a := by
  show i ∈ ((View.whole main_v0_1).slice (win0_4.rect t)).set ↔ _
  rw [View.set_slice_whole, Rect.mem_set_unit]
  exact Iff.rfl

/-- Every index `(b, n, e)` of the columns array is in the block of the point whose batch is `b`. -/
theorem cols_cover (i : S2x768x64.Idx) :
    ∃ t : Fin cfg0.N, (cfg0.win 4).flush t = true ∧ i ∈ ((cfg0.win 4).blk t).view.set := by
  have hi0 : (i 0).val < 2 := (i 0).isLt
  have hi1 : (i 1).val < 768 := (i 1).isLt
  have hi2 : (i 2).val < 64 := (i 2).isLt
  obtain ⟨t, ht⟩ := cols_onto ⟨(i 0).val, hi0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, flush0_4 t, ?_⟩
  rw [cols_mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 768 ≤ (i 1).val ∧ (i 1).val < win0_4.index t (1 : Fin 3) * 768 + 768; omega
  | ⟨2, _⟩ => show win0_4.index t (2 : Fin 3) * 64 ≤ (i 2).val ∧ (i 2).val < win0_4.index t (2 : Fin 3) * 64 + 64; omega

/-- The columns array after the pipeline is the projection of the features by the columns matrix. -/
theorem cols_final (c : Dev nD) :
    (dat0 (F := Ideal) V c).arrAt 4 cfg0.N = Cert.EdgeNorm.proj (V c main_arg0) (V c main_arg2) :=
  (dat0 (F := Ideal) V c).arrAt_eq_of_cover 4 (Cert.EdgeNorm.proj (V c main_arg0) (V c main_arg2))
    (fun t _ => cols_flushed V c t) cols_cover

end Cert.KernelIdeal.Region0

end
-- ==== Proof.EdgeBody.lean ====
/-
  The body of the edge stage at one entry, over the extended reals.

  From a rows block `x0 : [1, 128, 64]`, a cols block `x1 : [1, 128, 64]`, the edge matrix `x2 : [64, 64]`, a scale row
  `x3 : [1, 64]` and a shift row `x4 : [1, 64]` the body forms the outer sum `x0 (0, p, e) + x1 (0, q, e)`, flattens it
  row-major to `[16384, 64]` (row `128 p + q`), multiplies it by the transpose of `x2` into a zero accumulator, and
  reshapes back, so the pre-activation entry at `(p, q, f)` is `∑ e, (x0 (0, p, e) + x1 (0, q, e)) · x2 (f, e)`
  (`preBlock_apply`). Each row of 64 is then centred at its mean (the lane sum divided by the float 64), multiplied by
  the reciprocal square root of the centred row's mean square plus a small float constant (`normBlock_apply`), scaled by
  `x3 (0, f)` and shifted by `x4 (0, f)`. Every shape cast and broadcast is read at an index by its row-major position or
  its unit axes; both sides are the same tree of operations, so no law of arithmetic beyond `0 + x = x` (the zero
  accumulator) is used, and the two float constants stay bit patterns. `edge_payload` is the statement.
-/
import proofs.«136139_j21088289424017_1_alg».proof.Defs
import proofs.«136139_j21088289424017_1_alg».proof.Proof.Gen.KernelIdeal.Skeleton
import proofs.«136139_j21088289424017_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.KernelIdeal.EdgeBody

open Cert.KernelIdeal Cert.KernelIdeal.Gen

/-- The outer sum: the rows block repeated along a new middle axis plus the cols block repeated along a new leading
    axis, a [128, 128, 64] block. -/
def outerBlock (v0 v2 : Vec Ideal S1x128x64 .f32) : FVec Ideal S128x128x64 .f32 :=
  have v1 : FVec Ideal S128x64 .f32 := shapeCast S128x64 v0 shapeCasts_S1x128x64_S128x64
  have v3 : FVec Ideal S128x64 .f32 := shapeCast S128x64 v2 shapeCasts_S1x128x64_S128x64
  have v4 : FVec Ideal S128x1x64 .f32 := shapeCast S128x1x64 v1 shapeCasts_S128x64_S128x1x64
  have v5 : FVec Ideal S1x128x64 .f32 := shapeCast S1x128x64 v3 shapeCasts_S128x64_S1x128x64
  have v6 : FVec Ideal S128x128x64 .f32 := broadcastTo S128x128x64 v4 broadcasts_S128x1x64_S128x128x64
  have v7 : FVec Ideal S128x128x64 .f32 := broadcastTo S128x128x64 v5 broadcasts_S1x128x64_S128x128x64
  have v8 : FVec Ideal S128x128x64 .f32 := addf v6 v7
  v8

/-- The pre-activation block: the outer sum flattened to [16384, 64], multiplied by the transposed edge matrix into a
    zero accumulator, and reshaped to [128, 128, 64]. -/
def preBlock (v0 v2 : Vec Ideal S1x128x64 .f32) (v10 : Vec Ideal S64x64 .f32) : FVec Ideal S128x128x64 .f32 :=
  have v8 : FVec Ideal S128x128x64 .f32 := outerBlock v0 v2
  have v9 : FVec Ideal S128x128x64 .bf16 := truncf .bf16 v8 bitsLt_bf16_f32
  have v11 : FVec Ideal S64x64 .bf16 := truncf .bf16 v10 bitsLt_bf16_f32
  have v12 : FVec Ideal S16384x64 .bf16 := shapeCast S16384x64 v9 shapeCasts_S128x128x64_S16384x64
  have v13 : FVec Ideal S64x64 .bf16 := transpose S64x64 [1, 0] v11 transposes_S64x64_p1_0_S64x64
  have cst : FVec Ideal S16384x64 .f32 := constant S16384x64 .f32 0x00000000#32
  have v14 : FVec Ideal S16384x64 .f32 := matmul dot_S16384x64_S64x64_S16384x64_1_0_0_1_n_n none v12 v13 cst
  have v15 : FVec Ideal S128x128x64 .f32 := shapeCast S128x128x64 v14 shapeCasts_S16384x64_S128x128x64
  v15

/-- The mean of each row of 64 of a [128, 128, 64] block, kept as a [128, 128, 1] block: the lane sum divided by
    the float 64. -/
def meanBlock (v : FVec Ideal S128x128x64 .f32) : FVec Ideal S128x128x1 .f32 :=
  have v16 : FVec Ideal S128x128 .f32 := multiReduction .add [2] S128x128 v 0x00000000#32 reduces_S128x128x64_S128x128 (.inl rfl) rfl
  have v17 : FVec Ideal S128x128x1 .f32 := shapeCast S128x128x1 v16 shapeCasts_S128x128_S128x128x1
  have cst_8 : Ideal .f32 := Scalar.ofBits .f32 0x42800000#32
  have v18 : FVec Ideal S128x128x1 .f32 := broadcast S128x128x1 cst_8
  have v19 : FVec Ideal S128x128x1 .f32 := divf v17 v18
  v19

/-- Each row of a block centred at its mean: the block minus its row means repeated along the last axis. -/
def centredBlock (v15 : FVec Ideal S128x128x64 .f32) : FVec Ideal S128x128x64 .f32 :=
  have v19 : FVec Ideal S128x128x1 .f32 := meanBlock v15
  have v20 : FVec Ideal S128x128x64 .f32 := broadcastTo S128x128x64 v19 broadcasts_S128x128x1_S128x128x64
  have v21 : FVec Ideal S128x128x64 .f32 := subf v15 v20
  v21

/-- The rest of the normalisation applied to the pre-activation block: centre each row, scale by the reciprocal square
    root of the centred row's mean square plus the small constant. -/
def normBlock (v15 : FVec Ideal S128x128x64 .f32) : FVec Ideal S128x128x64 .f32 :=
  have v21 : FVec Ideal S128x128x64 .f32 := centredBlock v15
  have v22 : FVec Ideal S128x128x64 .f32 := mulf v21 v21
  have v26 : FVec Ideal S128x128x1 .f32 := meanBlock v22
  have cst_11 : Ideal .f32 := Scalar.ofBits .f32 0x3727C5AC#32
  have v27 : FVec Ideal S128x128x1 .f32 := broadcast S128x128x1 cst_11
  have v28 : FVec Ideal S128x128x1 .f32 := addf v26 v27
  have v29 : FVec Ideal S128x128x1 .f32 := rsqrt v28
  have v36 : FVec Ideal S128x128x64 .f32 := broadcastTo S128x128x64 v29 broadcasts_S128x128x1_S128x128x64
  have v37 : FVec Ideal S128x128x64 .f32 := mulf v21 v36
  v37

/-- The payload is the normalisation of the pre-activation block: the same sequence of operations, cut in two. -/
theorem k1_pay3_eq (x0 x1 : Vec Ideal S1x128x64 .f32) (x2 : Vec Ideal S64x64 .f32) :
    k1_pay3 (F := Ideal) x0 x1 x2 = normBlock (preBlock x0 x1 x2) := rfl

/-- The sum over the lanes of row (p, q): the reduction over the last axis read at (p, q) is the sum over the row's
    64 entries. -/
theorem laneSum_apply (v : FVec Ideal S128x128x64 .f32) (p q : Fin 128) :
    multiReduction (F := Ideal) .add [2] S128x128 v 0x00000000#32 reduces_S128x128x64_S128x128 (.inl rfl) rfl (ix2 p q)
      = ∑ k : Fin 64, v (ix3 p q k) := by
  refine (Ideal.multiReduction_add_single (φ := .f32) v _ reduces_S128x128x64_S128x128 _ _ (ix2 p q)).trans ?_
  show ∑ k : Fin 64, v (reduces_S128x128x64_S128x128.lift (ix2 p q) k) = _
  refine Finset.sum_congr rfl fun k _ => congrArg v ?_
  funext a
  match a with
  | ⟨0, _⟩ => rfl
  | ⟨1, _⟩ => rfl
  | ⟨2, _⟩ => rfl

/-- A [128, 128] block viewed as [128, 128, 1]: entry (p, q, u) is entry (p, q). -/
theorem castUnitLast_apply (w : FVec Ideal S128x128 .f32) (p q : Fin 128) (u : Fin 1) :
    shapeCast S128x128x1 w shapeCasts_S128x128_S128x128x1 (ix3 p q u) = w (ix2 p q) := by
  refine shapeCast_apply w _ (ix3 p q u) (ix2 p q) ?_
  rw [Shape.rowMajor_val_two, Shape.rowMajor_val_three]
  show p.val * 128 + q.val = (p.val * 128 + q.val) * 1 + u.val
  omega

/-- A [128, 128, 1] block repeated along the last axis: entry (p, q, f) is entry (p, q, 0). -/
theorem bcastLast_apply (w : FVec Ideal S128x128x1 .f32) (p q : Fin 128) (f : Fin 64) :
    broadcastTo S128x128x64 w broadcasts_S128x128x1_S128x128x64 (ix3 p q f) = w (ix3 p q 0) := by
  refine broadcastTo_apply w _ (ix3 p q f) (ix3 p q 0) fun a => ?_
  match a with
  | ⟨0, _⟩ => rfl
  | ⟨1, _⟩ => rfl
  | ⟨2, _⟩ => rfl

/-- The row mean of a block at (p, q) is the mean of that row. -/
theorem meanBlock_apply (v : FVec Ideal S128x128x64 .f32) (p q : Fin 128) (u : Fin 1) :
    meanBlock v (ix3 p q u) = Cert.EdgeNorm.mean64 (fun f' => v (ix3 p q f')) := by
  unfold meanBlock Cert.EdgeNorm.mean64
  refine congrArg (fun t => Ideal.div t (Ideal.ofBits .f32 0x42800000#32)) ?_
  exact (castUnitLast_apply _ p q u).trans (laneSum_apply v p q)

/-- The centred block at (p, q, g) is row (p, q) centred at its mean, at g. -/
theorem centredBlock_apply (v : FVec Ideal S128x128x64 .f32) (p q : Fin 128) (g : Fin 64) :
    centredBlock v (ix3 p q g) = Cert.EdgeNorm.centred (fun f' => v (ix3 p q f')) g := by
  unfold centredBlock Cert.EdgeNorm.centred
  exact congrArg (fun t => v (ix3 p q g) - t) ((bcastLast_apply _ p q g).trans (meanBlock_apply v p q 0))

/-- The normalised block at (p, q, f): the row centred at its mean, times the reciprocal square root of the centred
    row's mean square plus the small constant. -/
theorem normBlock_apply (v : FVec Ideal S128x128x64 .f32) (p q : Fin 128) (f : Fin 64) :
    normBlock v (ix3 p q f)
      = Cert.EdgeNorm.centred (fun f' => v (ix3 p q f')) f * Cert.EdgeNorm.invStd (fun f' => v (ix3 p q f')) := by
  unfold normBlock Cert.EdgeNorm.invStd
  show centredBlock v (ix3 p q f) * broadcastTo S128x128x64 (rsqrt (addf (meanBlock (mulf (centredBlock v) (centredBlock v)))
      (broadcast S128x128x1 (Scalar.ofBits .f32 0x3727C5AC#32)))) broadcasts_S128x128x1_S128x128x64 (ix3 p q f) = _
  rw [bcastLast_apply, centredBlock_apply]
  refine congrArg (fun t => Cert.EdgeNorm.centred (fun f' => v (ix3 p q f')) f * Ideal.rsqrt (t + Ideal.ofBits .f32 0x3727C5AC#32)) ?_
  refine (meanBlock_apply _ p q 0).trans (congrArg Cert.EdgeNorm.mean64 (funext fun g => ?_))
  show centredBlock v (ix3 p q g) * centredBlock v (ix3 p q g) = _
  rw [centredBlock_apply]

/-- The shift row: a [1, 64] row viewed as [1, 1, 64]; entry (0, 0, f) is entry (0, f). -/
theorem k1_pay2_apply (x4 : Vec Ideal S1x64 .f32) (u w : Fin 1) (f : Fin 64) :
    k1_pay2 (F := Ideal) x4 (ix3 u w f) = x4 (ix2 w f) := by
  unfold k1_pay2
  refine (shapeCast_ab_1ab_apply _ _ u w f).trans ?_
  rw [shapeCast_self]

/-- A [1, 1, 64] row repeated over a [128, 128, 64] block: entry (p, q, f) is entry (0, 0, f). -/
theorem bcastRow_apply (w : FVec Ideal S1x1x64 .f32) (p q : Fin 128) (f : Fin 64) :
    broadcastTo S128x128x64 w broadcasts_S1x1x64_S128x128x64 (ix3 p q f) = w (ix3 0 0 f) := by
  refine broadcastTo_apply w _ (ix3 p q f) (ix3 0 0 f) fun a => ?_
  match a with
  | ⟨0, _⟩ => rfl
  | ⟨1, _⟩ => rfl
  | ⟨2, _⟩ => rfl

/-- The scale block: the [1, 64] row viewed as [1, 1, 64] and repeated; entry (p, q, f) is entry (0, f). -/
theorem k1_pay4_apply (x3 : Vec Ideal S1x64 .f32) (p q : Fin 128) (f : Fin 64) :
    k1_pay4 (F := Ideal) x3 (ix3 p q f) = x3 (ix2 0 f) := by
  unfold k1_pay4
  refine (bcastRow_apply _ p q f).trans ?_
  refine (shapeCast_ab_1ab_apply _ _ 0 0 f).trans ?_
  rw [shapeCast_self]

/-- The stored block at (0, p, q, f): the normalised entry times the scale entry plus the shift row's entry. -/
theorem k1_pay1_apply (v35 : FVec Ideal S1x1x64 .f32) (v37 v38 : FVec Ideal S128x128x64 .f32) (p q : Fin 128) (f : Fin 64) :
    k1_pay1 (F := Ideal) v35 v37 v38 (ix4 0 p q f) = v37 (ix3 p q f) * v38 (ix3 p q f) + v35 (ix3 0 0 f) := by
  unfold k1_pay1
  refine (shapeCast_abc_1abc_apply _ _ 0 p q f).trans ?_
  exact congrArg (fun t => v37 (ix3 p q f) * v38 (ix3 p q f) + t) (bcastRow_apply v35 p q f)

/-- A [128, 64] block viewed as [128, 1, 64]: entry (p, u, e) is entry (p, e). -/
theorem castUnitMid_apply (w : FVec Ideal S128x64 .f32) (p : Fin 128) (u : Fin 1) (e : Fin 64) :
    shapeCast S128x1x64 w shapeCasts_S128x64_S128x1x64 (ix3 p u e) = w (ix2 p e) := by
  refine shapeCast_apply w _ (ix3 p u e) (ix2 p e) ?_
  rw [Shape.rowMajor_val_two, Shape.rowMajor_val_three]
  show p.val * 64 + e.val = (p.val * 1 + u.val) * 64 + e.val
  omega

/-- A [128, 1, 64] block repeated along the middle axis: entry (p, q, e) is entry (p, 0, e). -/
theorem bcastMid_apply (w : FVec Ideal S128x1x64 .f32) (p q : Fin 128) (e : Fin 64) :
    broadcastTo S128x128x64 w broadcasts_S128x1x64_S128x128x64 (ix3 p q e) = w (ix3 p 0 e) := by
  refine broadcastTo_apply w _ (ix3 p q e) (ix3 p 0 e) fun a => ?_
  match a with
  | ⟨0, _⟩ => rfl
  | ⟨1, _⟩ => rfl
  | ⟨2, _⟩ => rfl

/-- A [1, 128, 64] block repeated along the leading axis: entry (p, q, e) is entry (0, q, e). -/
theorem bcastFirst_apply (w : FVec Ideal S1x128x64 .f32) (p q : Fin 128) (e : Fin 64) :
    broadcastTo S128x128x64 w broadcasts_S1x128x64_S128x128x64 (ix3 p q e) = w (ix3 0 q e) := by
  refine broadcastTo_apply w _ (ix3 p q e) (ix3 0 q e) fun a => ?_
  match a with
  | ⟨0, _⟩ => rfl
  | ⟨1, _⟩ => rfl
  | ⟨2, _⟩ => rfl

/-- The outer sum at (p, q, e): row p of the rows block plus row q of the cols block, at e. -/
theorem outerBlock_apply (x0 x1 : Vec Ideal S1x128x64 .f32) (p q : Fin 128) (e : Fin 64) :
    outerBlock x0 x1 (ix3 p q e) = x0 (ix3 0 p e) + x1 (ix3 0 q e) := by
  unfold outerBlock
  have h6 : broadcastTo S128x128x64 (shapeCast S128x1x64 (shapeCast S128x64 x0 shapeCasts_S1x128x64_S128x64)
      shapeCasts_S128x64_S128x1x64) broadcasts_S128x1x64_S128x128x64 (ix3 p q e) = x0 (ix3 0 p e) :=
    (bcastMid_apply _ p q e).trans ((castUnitMid_apply _ p 0 e).trans (shapeCast_1ab_ab_apply x0 _ p e))
  have h7 : broadcastTo S128x128x64 (shapeCast S1x128x64 (shapeCast S128x64 x1 shapeCasts_S1x128x64_S128x64)
      shapeCasts_S128x64_S1x128x64) broadcasts_S1x128x64_S128x128x64 (ix3 p q e) = x1 (ix3 0 q e) :=
    (bcastFirst_apply _ p q e).trans ((shapeCast_ab_1ab_apply _ _ 0 q e).trans (shapeCast_1ab_ab_apply x1 _ q e))
  show broadcastTo S128x128x64 (shapeCast S128x1x64 (shapeCast S128x64 x0 shapeCasts_S1x128x64_S128x64)
      shapeCasts_S128x64_S128x1x64) broadcasts_S128x1x64_S128x128x64 (ix3 p q e)
    + broadcastTo S128x128x64 (shapeCast S1x128x64 (shapeCast S128x64 x1 shapeCasts_S1x128x64_S128x64)
      shapeCasts_S128x64_S1x128x64) broadcasts_S1x128x64_S128x128x64 (ix3 p q e) = _
  rw [h6, h7]

/-- Row 128 p + q of the flattened block. -/
def flatRow (p q : Fin 128) : Fin 16384 := ⟨p.val * 128 + q.val, by omega⟩

/-- A [128, 128, 64] block flattened to [16384, 64]: entry (128 p + q, e) is entry (p, q, e). -/
theorem flatten_apply {φ : FTy} (w : FVec Ideal S128x128x64 φ) (p q : Fin 128) (e : Fin 64) :
    shapeCast S16384x64 w shapeCasts_S128x128x64_S16384x64 (ix2 (flatRow p q) e) = w (ix3 p q e) := by
  refine shapeCast_apply w _ (ix2 (flatRow p q) e) (ix3 p q e) ?_
  rw [Shape.rowMajor_val_two, Shape.rowMajor_val_three]
  rfl

/-- A [16384, 64] block reshaped to [128, 128, 64]: entry (p, q, f) is entry (128 p + q, f). -/
theorem unflatten_apply (w : FVec Ideal S16384x64 .f32) (p q : Fin 128) (f : Fin 64) :
    shapeCast S128x128x64 w shapeCasts_S16384x64_S128x128x64 (ix3 p q f) = w (ix2 (flatRow p q) f) := by
  refine shapeCast_apply w _ (ix3 p q f) (ix2 (flatRow p q) f) ?_
  rw [Shape.rowMajor_val_two, Shape.rowMajor_val_three]
  rfl

/-- The product's left operand index on its row axis is the result's row. -/
theorem lhs_edge_0 (i : S16384x64.Idx) (k : dot_S16384x64_S64x64_S16384x64_1_0_0_1_n_n.contr.Idx) :
    (dot_S16384x64_S64x64_S16384x64_1_0_0_1_n_n.lhsIdx i k 0).val = (i 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
/-- The left operand index on its contracted axis is the contraction coordinate. -/
theorem lhs_edge_1 (i : S16384x64.Idx) (k : dot_S16384x64_S64x64_S16384x64_1_0_0_1_n_n.contr.Idx) :
    (dot_S16384x64_S64x64_S16384x64_1_0_0_1_n_n.lhsIdx i k 1).val = (k ⟨0, by decide⟩).val :=
  dot_S16384x64_S64x64_S16384x64_1_0_0_1_n_n.lhsIdx_val_of_single rfl i k
/-- The right operand index on its contracted axis is the contraction coordinate. -/
theorem rhs_edge_0 (i : S16384x64.Idx) (k : dot_S16384x64_S64x64_S16384x64_1_0_0_1_n_n.contr.Idx) :
    (dot_S16384x64_S64x64_S16384x64_1_0_0_1_n_n.rhsIdx i k 0).val = (k ⟨0, by decide⟩).val :=
  dot_S16384x64_S64x64_S16384x64_1_0_0_1_n_n.rhsIdx_val_of_single rfl i k
/-- The right operand index on its column axis is the result's column. -/
theorem rhs_edge_1 (i : S16384x64.Idx) (k : dot_S16384x64_S64x64_S16384x64_1_0_0_1_n_n.contr.Idx) :
    (dot_S16384x64_S64x64_S16384x64_1_0_0_1_n_n.rhsIdx i k 1).val = (i 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl

/-- The product into a zero accumulator at (r, f): the sum over e of the left operand at (r, e) times the right
    operand at (e, f). -/
theorem matmul_edge_apply (A : FVec Ideal S16384x64 .bf16) (B : FVec Ideal S64x64 .bf16) (r : Fin 16384) (f : Fin 64) :
    matmul (F := Ideal) dot_S16384x64_S64x64_S16384x64_1_0_0_1_n_n none A B (constant S16384x64 .f32 0x00000000#32) (ix2 r f)
      = ∑ e : Fin 64, A (ix2 r e) * B (ix2 e f) := by
  simp only [matmul]
  rw [Ideal.matmul_constant_zero_apply, ← Equiv.sum_comp (contrEquiv1 dot_S16384x64_S64x64_S16384x64_1_0_0_1_n_n 64 rfl rfl).symm]
  refine Finset.sum_congr rfl fun e _ => ?_
  have hk := contrEquiv1_symm_val dot_S16384x64_S64x64_S16384x64_1_0_0_1_n_n 64 rfl rfl e
  have el : dot_S16384x64_S64x64_S16384x64_1_0_0_1_n_n.lhsIdx (ix2 r f) ((contrEquiv1 dot_S16384x64_S64x64_S16384x64_1_0_0_1_n_n 64 rfl rfl).symm e) = ix2 r e := funext fun a => Fin.ext (by
    match a with
    | ⟨0, _⟩ => exact lhs_edge_0 _ _
    | ⟨1, _⟩ => exact (lhs_edge_1 _ _).trans hk)
  have er : dot_S16384x64_S64x64_S16384x64_1_0_0_1_n_n.rhsIdx (ix2 r f) ((contrEquiv1 dot_S16384x64_S64x64_S16384x64_1_0_0_1_n_n 64 rfl rfl).symm e) = ix2 e f := funext fun a => Fin.ext (by
    match a with
    | ⟨0, _⟩ => exact (rhs_edge_0 _ _).trans hk
    | ⟨1, _⟩ => exact rhs_edge_1 _ _)
  rw [el, er]

/-- The pre-activation block at (p, q, f): the outer sum's row (p, q) against row f of the edge matrix. -/
theorem preBlock_apply (x0 x1 : Vec Ideal S1x128x64 .f32) (x2 : Vec Ideal S64x64 .f32) (p q : Fin 128) (f : Fin 64) :
    preBlock x0 x1 x2 (ix3 p q f) = ∑ e : Fin 64, (x0 (ix3 0 p e) + x1 (ix3 0 q e)) * x2 (ix2 f e) := by
  unfold preBlock
  refine (unflatten_apply _ p q f).trans ?_
  refine (matmul_edge_apply _ _ (flatRow p q) f).trans ?_
  refine Finset.sum_congr rfl fun e _ => ?_
  rw [flatten_apply, transpose_ix2_apply]
  show outerBlock x0 x1 (ix3 p q e) * x2 (ix2 f e) = _
  rw [outerBlock_apply]

/-- THE EDGE BODY AT ONE ENTRY: the stored block at (0, p, q, f) is the normalised pre-activation row of the pair
    (p, q) at f, scaled by the scale row and shifted by the shift row. -/
theorem edge_payload (x0 x1 : Vec Ideal S1x128x64 .f32) (x2 : Vec Ideal S64x64 .f32) (x3 x4 : Vec Ideal S1x64 .f32)
    (p q : Fin 128) (f : Fin 64) :
    k1_pay1 (F := Ideal) (k1_pay2 x4) (k1_pay3 x0 x1 x2) (k1_pay4 x3) (ix4 0 p q f)
      = Cert.EdgeNorm.layerNorm (fun f' => ∑ e : Fin 64, (x0 (ix3 0 p e) + x1 (ix3 0 q e)) * x2 (ix2 f' e))
          (fun f' => x3 (ix2 0 f')) (fun f' => x4 (ix2 0 f')) f := by
  rw [k1_pay1_apply, k1_pay2_apply, k1_pay4_apply, k1_pay3_eq, normBlock_apply]
  have hrow : (fun f' => preBlock x0 x1 x2 (ix3 p q f'))
      = fun f' => ∑ e : Fin 64, (x0 (ix3 0 p e) + x1 (ix3 0 q e)) * x2 (ix2 f' e) :=
    funext fun f' => preBlock_apply x0 x1 x2 p q f'
  rw [hrow]
  rfl

end Cert.KernelIdeal.EdgeBody

end
-- ==== Proof.Region1.lean ====
/-
  The second pallas_call, from its blocks to its whole result array.

  Grid point `t = (b, I, J)` of the `2 × 6 × 6` grid stages rows `128·I … 128·I + 127` of batch `b` of the row
  projections, rows `128·J … 128·J + 127` of batch `b` of the column projections, the whole edge matrix and the two
  `[1, 64]` vectors, and writes back the `[1, 128, 128, 64]` block `(b, I, J, 0)` of the result.  Entry `(0, p, q, f)`
  of that block is entry `f` of the normalised pre-activation row of the pair `(128·I + p, 128·J + q)` of batch `b`,
  that is, the edge embedding at `(b, 128·I + p, 128·J + q, f)`: each block is the restriction of ONE function of
  the region's five operand arrays.  The 72 blocks tile the result array, so the array ends holding that function.
-/
import proofs.«136139_j21088289424017_1_alg».proof.Defs
import proofs.«136139_j21088289424017_1_alg».proof.Proof.Gen.KernelIdeal.Frame
import proofs.«136139_j21088289424017_1_alg».proof.Proof.Spec
import proofs.«136139_j21088289424017_1_alg».proof.Proof.EdgeBody
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region1

open Cert.KernelIdeal Cert.KernelIdeal.Gen Cert.EdgeNorm
open Cert.KernelIdeal.EdgeBody

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A block's entry as the edge embedding's: if the staged rows block is rows `128·I + p` of batch `b` of `rows`, the
    staged columns block rows `128·J + q` of batch `b` of `cols`, and the three small operands are staged whole, then
    the body's stored value at `y = (0, p, q, f)` is the edge embedding at the array index `i` lying under `y`. -/
theorem block_entry (rows cols : (⟨3, ![2, 768, 64]⟩ : Shape).Idx → EReal) (W : (⟨2, ![64, 64]⟩ : Shape).Idx → EReal)
    (g bt : Fin 64 → EReal)
    (x0 x1 : Vec Ideal S1x128x64 .f32) (x2 : Vec Ideal S64x64 .f32) (x3 x4 : Vec Ideal S1x64 .f32)
    (y : S1x128x128x64.Idx) (i : S2x768x768x64.Idx)
    (h0 : ∀ e : Fin 64, x0 (ix3 0 (y 1) e) = rows (ix3 (i 0) (i 1) e))
    (h1 : ∀ e : Fin 64, x1 (ix3 0 (y 2) e) = cols (ix3 (i 0) (i 2) e))
    (h2 : ∀ f e : Fin 64, x2 (ix2 f e) = W (ix2 f e))
    (h3 : ∀ f : Fin 64, x3 (ix2 0 f) = g f) (h4 : ∀ f : Fin 64, x4 (ix2 0 f) = bt f)
    (hi3 : i 3 = y 3) :
    k1_pay1 (F := Ideal) (k1_pay2 x4) (k1_pay3 x0 x1 x2) (k1_pay4 x3) y = edge rows cols W g bt i := by
  obtain ⟨u, p, q, f, rfl⟩ : ∃ (u : Fin 1) (p q : Fin 128) (f : Fin 64), y = ix4 u p q f := ⟨y 0, y 1, y 2, y 3, eq_ix4 y⟩
  obtain rfl : u = 0 := Subsingleton.elim _ _
  rw [edge_payload]
  unfold edge
  rw [hi3]
  show layerNorm _ _ _ f = layerNorm _ _ _ f
  congr 1
  · funext f'
    unfold pre
    refine Finset.sum_congr rfl fun e _ => ?_
    rw [h0 e, h1 e, h2 f' e]
  · funext f'; exact h3 f'
  · funext f'; exact h4 f'

variable (V : (c : Dev nD) → (b : Ref sig .tc) → Buf (Elt Ideal) ((c : Thread nD τ).loc b))

/-- The printed index maps, decided over the 72 grid points: the rows window moves with the result's axes 0 and 1,
    the columns window with its axes 0 and 2, the three small windows stay at block 0, and the result's block indices
    stay in their ranges. -/
theorem idx_facts : ∀ t : Fin cfg1.N,
    win1_0.index t (0 : Fin 3) = win1_5.index t (0 : Fin 4) ∧ win1_0.index t (1 : Fin 3) = win1_5.index t (1 : Fin 4)
    ∧ win1_0.index t (2 : Fin 3) = 0
    ∧ win1_1.index t (0 : Fin 3) = win1_5.index t (0 : Fin 4) ∧ win1_1.index t (1 : Fin 3) = win1_5.index t (2 : Fin 4)
    ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 4) < 2 ∧ win1_5.index t (1 : Fin 4) < 6 ∧ win1_5.index t (2 : Fin 4) < 6
    ∧ win1_5.index t (3 : Fin 4) = 0 :=
  (by decide +kernel : ∀ t : Fin grid1.N, _)

/-- Every block index of the result is some grid point's. -/
theorem idx_onto : ∀ (b : Fin 2) (I J : Fin 6), ∃ t : Fin cfg1.N, win1_5.index t = ![b.val, I.val, J.val, 0] :=
  (by decide +kernel : ∀ (b : Fin 2) (I J : Fin 6), ∃ t : Fin grid1.N, win1_5.index t = ![b.val, I.val, J.val, 0])

/-- The edge embedding of the region's operand arrays as the region finds them. -/
abbrev edgeOf (c : Dev nD) : (⟨4, ![2, 768, 768, 64]⟩ : Shape).Idx → EReal :=
  edge (V c main_v0_0) (V c main_v0_1) (V c main_arg3) (fun f => V c main_v1 (ix2 0 f)) (fun f => V c main_v2 (ix2 0 f))

/-- What grid point `t` writes back is block `t` of the edge embedding of the region's operand arrays. -/
theorem flushed_eq (c : Dev nD) (t : Fin cfg1.N) :
    (dat1 (F := Ideal) V c).flushed 5 t = ((cfg1.win 5).blk t).view.read (Elt Ideal) (edgeOf V c) := by
  show (cfg1.win 5).cut (grid1.coords t) ((dat1 V c).after 5 t) = _
  rw [after1_5]
  unfold out1_5
  rw [View.canon_unit_zero hz4]
  simp only [View.ld_unit_zero (S := S1x128x64) hz3, View.ld_unit_zero (S := S64x64) hz2, View.ld_unit_zero (S := S1x64) hz2]
  obtain ⟨e00, e01, e02, e10, e11, e12, e20, e21, e30, e31, e40, e41, b0, b1, b2, e53⟩ := idx_facts t
  funext y
  show k1_pay1 (F := Ideal) (k1_pay2 (iblk1 V c 4 t)) (k1_pay3 (iblk1 V c 0 t) (iblk1 V c 1 t) (iblk1 V c 2 t)) (k1_pay4 (iblk1 V c 3 t)) y
    = edgeOf V c (((cfg1.win 5).blk t).view.emb y)
  refine block_entry (V c main_v0_0) (V c main_v0_1) (V c main_arg3) (fun f => V c main_v1 (ix2 0 f)) (fun f => V c main_v2 (ix2 0 f))
    (iblk1 V c 0 t) (iblk1 V c 1 t) (iblk1 V c 2 t) (iblk1 V c 3 t) (iblk1 V c 4 t) y (((cfg1.win 5).blk t).view.emb y)
    (fun e => ?_) (fun e => ?_) (fun f e => ?_) (fun f => ?_) (fun f => ?_) ?_
  · unfold iblk1
    rw [View.read_apply]
    refine congrArg (V c main_v0_0) (funext fun a => Fin.ext ?_)
    match a with
    | ⟨0, _⟩ => show win1_0.index t (0 : Fin 3) * 1 + 1 * 0 = win1_5.index t (0 : Fin 4) * 1 + 1 * (y 0).val; have hy : (y 0).val < 1 := (y 0).isLt; omega
    | ⟨1, _⟩ => show win1_0.index t (1 : Fin 3) * 128 + 1 * (y 1).val = win1_5.index t (1 : Fin 4) * 128 + 1 * (y 1).val; omega
    | ⟨2, _⟩ => show win1_0.index t (2 : Fin 3) * 64 + 1 * e.val = e.val; omega
  · unfold iblk1
    rw [View.read_apply]
    refine congrArg (V c main_v0_1) (funext fun a => Fin.ext ?_)
    match a with
    | ⟨0, _⟩ => show win1_1.index t (0 : Fin 3) * 1 + 1 * 0 = win1_5.index t (0 : Fin 4) * 1 + 1 * (y 0).val; have hy : (y 0).val < 1 := (y 0).isLt; omega
    | ⟨1, _⟩ => show win1_1.index t (1 : Fin 3) * 128 + 1 * (y 2).val = win1_5.index t (2 : Fin 4) * 128 + 1 * (y 2).val; omega
    | ⟨2, _⟩ => show win1_1.index t (2 : Fin 3) * 64 + 1 * e.val = e.val; omega
  · unfold iblk1
    rw [View.read_apply]
    refine congrArg (V c main_arg3) (funext fun a => Fin.ext ?_)
    match a with
    | ⟨0, _⟩ => show win1_2.index t (0 : Fin 2) * 64 + 1 * f.val = f.val; omega
    | ⟨1, _⟩ => show win1_2.index t (1 : Fin 2) * 64 + 1 * e.val = e.val; omega
  · unfold iblk1
    rw [View.read_apply]
    refine congrArg (V c main_v1) (funext fun a => Fin.ext ?_)
    match a with
    | ⟨0, _⟩ => show win1_3.index t (0 : Fin 2) * 1 + 1 * 0 = 0; omega
    | ⟨1, _⟩ => show win1_3.index t (1 : Fin 2) * 64 + 1 * f.val = f.val; omega
  · unfold iblk1
    rw [View.read_apply]
    refine congrArg (V c main_v2) (funext fun a => Fin.ext ?_)
    match a with
    | ⟨0, _⟩ => show win1_4.index t (0 : Fin 2) * 1 + 1 * 0 = 0; omega
    | ⟨1, _⟩ => show win1_4.index t (1 : Fin 2) * 64 + 1 * f.val = f.val; omega
  · apply Fin.ext
    show win1_5.index t (3 : Fin 4) * 64 + 1 * (y 3).val = (y 3).val
    omega

/-- An index of the result array lies in grid point `t`'s block iff each coordinate lies in the block's range on its
    axis. -/
theorem mem_blk (t : Fin cfg1.N) (i : S2x768x768x64.Idx) :
    i ∈ ((cfg1.win 5).blk t).view.set ↔ ∀ a : Fin 4, win1_5.index t a * S1x128x128x64.size a ≤ (i a).val
      ∧ (i a).val < win1_5.index t a * S1x128x128x64.size a + S1x128x128x64.size a := by
  show i ∈ ((View.whole main_v3).slice (win1_5.rect t)).set ↔ _
  rw [View.set_slice_whole, Rect.mem_set_unit]
  exact Iff.rfl

/-- The blocks cover the result array: index `(b, n, j, f)` lies in the block `(b, n / 128, j / 128, 0)`. -/
theorem cover (i : S2x768x768x64.Idx) :
    ∃ t : Fin cfg1.N, (cfg1.win 5).flush t = true ∧ i ∈ ((cfg1.win 5).blk t).view.set := by
  have h0 : (i 0).val < 2 := (i 0).isLt
  have h1 : (i 1).val < 768 := (i 1).isLt
  have h2 : (i 2).val < 768 := (i 2).isLt
  have h3 : (i 3).val < 64 := (i 3).isLt
  obtain ⟨t, ht⟩ := idx_onto ⟨(i 0).val, h0⟩ ⟨(i 1).val / 128, by omega⟩ ⟨(i 2).val / 128, by omega⟩
  have q0 : win1_5.index t (0 : Fin 4) = (i 0).val := congrFun ht 0
  have q1 : win1_5.index t (1 : Fin 4) = (i 1).val / 128 := congrFun ht 1
  have q2 : win1_5.index t (2 : Fin 4) = (i 2).val / 128 := congrFun ht 2
  have q3 : win1_5.index t (3 : Fin 4) = 0 := congrFun ht 3
  refine ⟨t, flush1_5 t, ?_⟩
  rw [mem_blk]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 128 ≤ (i 1).val ∧ (i 1).val < win1_5.index t (1 : Fin 4) * 128 + 128; omega
  | ⟨2, _⟩ => show win1_5.index t (2 : Fin 4) * 128 ≤ (i 2).val ∧ (i 2).val < win1_5.index t (2 : Fin 4) * 128 + 128; omega
  | ⟨3, _⟩ => show win1_5.index t (3 : Fin 4) * 64 ≤ (i 3).val ∧ (i 3).val < win1_5.index t (3 : Fin 4) * 64 + 64; omega

/-- So the result array ends holding the edge embedding of the region's operand arrays. -/
theorem edge_final (c : Dev nD) : (dat1 (F := Ideal) V c).arrAt 5 cfg1.N = edgeOf V c :=
  (dat1 V c).arrAt_eq_of_cover 5 (edgeOf V c) (fun t _ => flushed_eq V c t) cover

end Cert.KernelIdeal.Region1

end
-- ==== Proof.lean ====
/-
  The edge embedding kernel against its jnp reference, over the extended reals.

  The kernel is two pallas_calls.  The first projects the node features `x : [2, 768, 512]` by two `[64, 512]`
  matrices, one batch per grid point, into the row and column projections `[2, 768, 64]`.  The second, on a
  `2 × 6 × 6` grid, takes a `128`-row block of each projection, forms for every ordered pair `(i, j)` of the block the
  sum of node `i`'s row projection and node `j`'s column projection, contracts it against the `[64, 64]` edge matrix,
  and normalises the resulting row of 64 numbers (centred at its mean, scaled by the reciprocal square root of its
  mean square plus a small constant, then by the scale vector, then shifted by the shift vector).  The reference
  computes the same tree of operations with whole-array einsums, broadcasts and reductions.  At the ideal instance a
  change of float format is the identity, a matrix product into a zero accumulator and a host contraction are the same
  finite sum, a lane reduction and a host reduction are the same finite sum, and the two programs divide by the same
  float 64 and add the same float literal: both results are ONE function of the six inputs, `Cert.EdgeNorm.result`
  (Proof/Spec.lean), and no algebraic law beyond `0 + x = x` is used, so the precondition is never opened.

  The pieces: the reference's stages read at an index (Proof/RefValue.lean, over the generated run and its reading);
  the kernel's run with its result buffer named (Proof/KernelRun.lean, the generated frame's launch called again);
  the first call's two result arrays (Proof/Region0.lean); the second call's body at an entry (Proof/EdgeBody.lean) and
  its result array (Proof/Region1.lean); what the second call finds in its operands (Proof/Between.lean).  Here they
  are put together: the three frames, the (empty) idealization ledger, and the equality of results.
-/
import proofs.«136139_j21088289424017_1_alg».proof.Defs
import proofs.«136139_j21088289424017_1_alg».proof.Proof.Gen.Kernel
import proofs.«136139_j21088289424017_1_alg».proof.Proof.Gen.Kernel.Skeleton
import proofs.«136139_j21088289424017_1_alg».proof.Proof.Gen.Kernel.Launch
import proofs.«136139_j21088289424017_1_alg».proof.Proof.Gen.Kernel.Points
import proofs.«136139_j21088289424017_1_alg».proof.Proof.Gen.Kernel.Frame
import proofs.«136139_j21088289424017_1_alg».proof.Proof.Gen.KernelIdeal
import proofs.«136139_j21088289424017_1_alg».proof.Proof.Gen.KernelIdeal.Skeleton
import proofs.«136139_j21088289424017_1_alg».proof.Proof.Gen.KernelIdeal.Launch
import proofs.«136139_j21088289424017_1_alg».proof.Proof.Gen.KernelIdeal.Points
import proofs.«136139_j21088289424017_1_alg».proof.Proof.Gen.KernelIdeal.Frame
import proofs.«136139_j21088289424017_1_alg».proof.Proof.Gen.ReferenceIdeal
import proofs.«136139_j21088289424017_1_alg».proof.Proof.Gen.ReferenceIdeal.Run
import proofs.«136139_j21088289424017_1_alg».proof.Proof.Gen.ReferenceIdeal.Read
import proofs.«136139_j21088289424017_1_alg».proof.Proof.Gen.Pre_finite_inputs
import proofs.«136139_j21088289424017_1_alg».proof.Proof.Spec
import proofs.«136139_j21088289424017_1_alg».proof.Proof.RefValue
import proofs.«136139_j21088289424017_1_alg».proof.Proof.KernelRun
import proofs.«136139_j21088289424017_1_alg».proof.Proof.Between
import proofs.«136139_j21088289424017_1_alg».proof.Proof.Region0
import proofs.«136139_j21088289424017_1_alg».proof.Proof.Region1
import Idealize.ShloMosaic.Lib.ValueIdx
import Idealize.ShloMosaic.Adequacy
import Idealize.ShloMosaic.Init

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The specification's result of core `c`'s six launched argument arrays. -/
abbrev spec (c : Dev nD) : (⟨4, ![2, 768, 768, 64]⟩ : Shape).Idx → EReal :=
  Cert.EdgeNorm.result (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- The contents of the result buffer at the last boundary of @main: the second call's result array, which is the
    edge embedding of what that call found, which is the first call's two projections of the launched features, the
    launched edge matrix, and the launched scale and shift vectors. -/
theorem result_eq (c : Dev nD) : W3 m ρ c (Proc.devRef .tc main_v3) = spec m c := by
  rw [show W3 m ρ c (Proc.devRef .tc main_v3) = (dat1 (V2 m ρ) c).arrAt 5 cfg1.N from W3_arr m ρ c 5,
    Region1.edge_final (V2 m ρ) c]
  show Cert.EdgeNorm.edge (V2 m ρ c main_v0_0) (V2 m ρ c main_v0_1) (V2 m ρ c main_arg3)
    (fun f => V2 m ρ c main_v1 (ix2 0 f)) (fun f => V2 m ρ c main_v2 (ix2 0 f)) = _
  have hs : (fun f : Fin 64 => V2 m ρ c main_v1 (ix2 0 f)) = fun f => m ((c : Thread nD τ).loc main_arg4) (ix1 f) :=
    funext fun f => Between.V2_scale m ρ c f
  have hb : (fun f : Fin 64 => V2 m ρ c main_v2 (ix2 0 f)) = fun f => m ((c : Thread nD τ).loc main_arg5) (ix1 f) :=
    funext fun f => Between.V2_shift m ρ c f
  rw [hs, hb, Between.V2_rows, Between.V2_cols, Between.V2_edgeMatrix, Region0.rows_final, Region0.cols_final]
  rfl

/-- The run of the idealized kernel, read: the result buffer ends at the specification's result of the launched
    arguments, the arguments unchanged. -/
theorem run : θ_run defs (onTc (τ := τ) (main (F := Ideal))) ⟨m, fun _ => 0, ρ⟩ (fun r => ∀ c : Dev nD,
      r.2.mem ((c.tc : Thread nD τ).loc main_v3) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (GenRun.run_named m ρ)

end Cert.KernelIdeal.Whole

namespace Cert.Proof

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the specification's result of the arguments they agree on. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v31_eq, Cert.ReferenceIdeal.RefValue.ref_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
